-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S16x64 : Shape := ⟨2, ![16, 64]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg4 : IVec S1000000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S1000000 32 := broadcastInDim S1000000 ![] bcast_S_S1000000 main_c_14
  let main_v40 : IVec S1000000 1 := cmpi .sge main_arg4 main_v39
  let main_c_15 : IVec S_ 32 := constantI S_ 32 16#32
  let main_v41 : IVec S1000000 32 := broadcastInDim S1000000 ![] bcast_S_S1000000 main_c_15
  let main_v42 : IVec S1000000 1 := cmpi .slt main_arg4 main_v41
  let main_v43 : IVec S1000000 1 := andi main_v40 main_v42
  let main_c_16 : IVec S_ 1 := constantI S_ 1 1#1
  let main_v44 : IVec S_ 1 := (fun x v => Host.reduce IntOp.andi x v reducesTo_S1000000_S_d0 h_S_) main_v43 main_c_16
  let main_v45 : IVec S_ 1 := andi main_v38 main_v44
  main_v45

def fn_part1 {F : FTy → Type} [FloatOps F] (main_arg4 : IVec S1000000 32) (main_arg5 : FVec F S256x128 .f32) (main_arg6 : FVec F S128 .f32) (main_arg7 : FVec F S128x64 .f32) (main_arg8 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg4 main_arg8 main_v33

def fn {F : FTy → Type} [FloatOps F] (main_arg0 : FVec F S1000000x64 .f32) (main_arg1 : FVec F S1000000x64 .f32) (main_arg2 : FVec F S1000000x64 .f32) (main_arg3 : FVec F S16x64 .f32) (main_arg4 : IVec S1000000 32) (main_arg5 : FVec F S256x128 .f32) (main_arg6 : FVec F S128 .f32) (main_arg7 : FVec F S128x64 .f32) (main_arg8 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_v13 main_v16
-- ==== Kernel.lean ====
abbrev S1000000x64 : Shape := ⟨2, ![1000000, 64]⟩
abbrev S16x64 : Shape := ⟨2, ![16, 64]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S500000x128 : Shape := ⟨2, ![500000, 128]⟩
abbrev S_ : Shape := ⟨0, ![]⟩
abbrev S500000x2 : Shape := ⟨2, ![500000, 2]⟩
abbrev S64x128 : Shape := ⟨2, ![64, 128]⟩
abbrev S64x256 : Shape := ⟨2, ![64, 256]⟩
abbrev S128x256 : Shape := ⟨2, ![128, 256]⟩
abbrev S256x256 : Shape := ⟨2, ![256, 256]⟩
abbrev S16x128 : Shape := ⟨2, ![16, 128]⟩
abbrev S32x128 : Shape := ⟨2, ![32, 128]⟩
abbrev S128x128 : Shape := ⟨2, ![128, 128]⟩
abbrev S256 : Shape := ⟨1, ![256]⟩
abbrev S1x256 : Shape := ⟨2, ![1, 256]⟩
abbrev S1x128 : Shape := ⟨2, ![1, 128]⟩
abbrev S2000x128 : Shape := ⟨2, ![2000, 128]⟩
abbrev S2000x2 : Shape := ⟨2, ![2000, 2]⟩
abbrev S2000x1 : Shape := ⟨2, ![2000, 1]⟩
abbrev S2000x32 : Shape := ⟨2, ![2000, 32]⟩
abbrev S2000x256 : Shape := ⟨2, ![2000, 256]⟩

abbrev nBuf : Space → Nat
  | .hbm => 67
  | .vmem => 16
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x64, .f32⟩
  | .hbm, ⟨3, _⟩ => ⟨S16x64, .f32⟩
  | .hbm, ⟨4, _⟩ => ⟨S1000000, .i32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S500000x2, .i32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x256, .f32⟩
  | .hbm, ⟨25, _⟩ => ⟨S64x256, .f32⟩
  | .hbm, ⟨26, _⟩ => ⟨S128x256, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x256, .f32⟩
  | .hbm, ⟨31, _⟩ => ⟨S64x256, .f32⟩
  | .hbm, ⟨32, _⟩ => ⟨S128x256, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x256, .f32⟩
  | .hbm, ⟨37, _⟩ => ⟨S64x256, .f32⟩
  | .hbm, ⟨38, _⟩ => ⟨S128x256, .f32⟩
  | .hbm, ⟨39, _⟩ => ⟨S64x128, .f32⟩
  | .hbm, ⟨40, _⟩ => ⟨S_, .f32⟩
  | .hbm, ⟨41, _⟩ => ⟨S64x128, .f32⟩
  | .hbm, ⟨42, _⟩ => ⟨S64x256, .f32⟩
  | .hbm, ⟨43, _⟩ => ⟨S64x256, .f32⟩
  | .hbm, ⟨44, _⟩ => ⟨S128x256, .f32⟩
  | .hbm, ⟨45, _⟩ => ⟨S256x256, .f32⟩
  | .hbm, ⟨46, _⟩ => ⟨S256x256, .bf16⟩
  | .hbm, ⟨47, _⟩ => ⟨S256x256, .f32⟩
  | .hbm, ⟨48, _⟩ => ⟨S256x256, .bf16⟩
  | .hbm, ⟨49, _⟩ => ⟨S_, .f32⟩
  | .hbm, ⟨50, _⟩ => ⟨S16x64, .f32⟩
  | .hbm, ⟨51, _⟩ => ⟨S16x128, .f32⟩
  | .hbm, ⟨52, _⟩ => ⟨S16x128, .f32⟩
  | .hbm, ⟨53, _⟩ => ⟨S32x128, .f32⟩
  | .hbm, ⟨54, _⟩ => ⟨S32x128, .bf16⟩
  | .hbm, ⟨55, _⟩ => ⟨S_, .f32⟩
  | .hbm, ⟨56, _⟩ => ⟨S128x64, .f32⟩
  | .hbm, ⟨57, _⟩ => ⟨S128x128, .f32⟩
  | .hbm, ⟨58, _⟩ => ⟨S128x128, .f32⟩
  | .hbm, ⟨59, _⟩ => ⟨S256x128, .f32⟩
  | .hbm, ⟨60, _⟩ => ⟨S256x128, .bf16⟩
  | .hbm, ⟨61, _⟩ => ⟨S256, .f32⟩
  | .hbm, ⟨62, _⟩ => ⟨S1x256, .f32⟩
  | .hbm, ⟨63, _⟩ => ⟨S128, .f32⟩
  | .hbm, ⟨64, _⟩ => ⟨S1x128, .f32⟩
  | .hbm, ⟨65, _⟩ => ⟨S500000x128, .f32⟩
  | .hbm, ⟨66, _⟩ => ⟨S1000000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x2, .i32⟩
  | .local _ .vmem, ⟨7, _⟩ => ⟨S2000x2, .i32⟩
  | .local _ .vmem, ⟨8, _⟩ => ⟨S32x128, .bf16⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1000000x64_S500000x128 : S1000000x64.ShapeCasts S500000x128
  bcast_S_S1000000 : S_.BroadcastsInDim S1000000 (![] : Fin 0 → Fin S1000000.rank)
  shapeCasts_S1000000_S500000x2 : S1000000.ShapeCasts S500000x2
  slices_S256x128_S64x128_0_0 : S256x128.Slices ![0, 0] S64x128
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  slices_S256x128_S64x128_64_0 : S256x128.Slices ![64, 0] S64x128
  slices_S256x128_S64x128_128_0 : S256x128.Slices ![128, 0] S64x128
  slices_S256x128_S64x128_192_0 : S256x128.Slices ![192, 0] S64x128
  concatenates_S128x256_S128x256_S256x256_d0 : Shape.Concatenates [S128x256, S128x256] S256x256 0
  bitsLt_bf16_f32 : FTy.bits .bf16 < FTy.bits .f32
  bcast_S_S16x64 : S_.BroadcastsInDim S16x64 (![] : Fin 0 → Fin S16x64.rank)
  concatenates_S16x64_S16x64_S16x128_d1 : Shape.Concatenates [S16x64, S16x64] S16x128 1
  concatenates_S16x128_S16x128_S32x128_d0 : Shape.Concatenates [S16x128, S16x128] S32x128 0
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  concatenates_S128_S128_S256_d0 : Shape.Concatenates [S128, S128] S256 0
  shapeCasts_S256_S1x256 : S256.ShapeCasts S1x256
  concatenates_S64_S64_S128_d0 : Shape.Concatenates [S64, S64] S128 0
  shapeCasts_S128_S1x128 : S128.ShapeCasts S1x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  iota_S2000x32_d1_w32 : S2000x32.Iotas .tc 32 [1]
  natLt_1_32 : 1 < 32
  shapeCasts_S2000x1_S2000x1 : S2000x1.ShapeCasts S2000x1
  broadcasts_S2000x1_S2000x32 : S2000x1.Broadcasts S2000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S500000x128_S1000000x64 : S500000x128.ShapeCasts S1000000x64
  dot_S2000x32_S32x128_S2000x128_1_0_0_1_n_n_wf : DotDims.WF S2000x32 S32x128 S2000x128 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S500000x2.size a
  hwx0_3 : ∀ i : grid0.Coords, EltTy.bits .i32 = 32 ∨ (Rect.block (s := S500000x2) S2000x2.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S500000x128.size a
  hwx0_10 : ∀ i : grid0.Coords, EltTy.bits .f32 = 32 ∨ (Rect.block (s := S500000x128) S2000x128.size (cc0_transform_10 i) (hinb0_10 i)).WholeWords (EltTy.packing .f32)

variable [Facts₀]

def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S16x64 : Shape := ⟨2, ![16, 64]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x256 : Shape := ⟨2, ![1000000, 256]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x64, .f32⟩
  | .hbm, ⟨3, _⟩ => ⟨S16x64, .f32⟩
  | .hbm, ⟨4, _⟩ => ⟨S1000000, .i32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S1000000x256, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000x128, .f32⟩
  | .hbm, ⟨25, _⟩ => ⟨S1000000x128, .f32⟩
  | .hbm, ⟨26, _⟩ => ⟨S1000000x64, .f32⟩
  | .hbm, ⟨27, _⟩ => ⟨S1x64, .f32⟩
  | .hbm, ⟨28, _⟩ => ⟨S1000000x64, .f32⟩
  | .hbm, ⟨29, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x64_S1000000x256_d1 : Shape.Concatenates [S1000000x64, S1000000x64, S1000000x64, S1000000x64] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S16x64_S1000000x1_S1000000x64_1_0_n_n_0_1_164_wf : GatherDims.WF S16x64 S1000000x1 S1000000x64 [1] [0] [] [0] [] 1 ![1, 64]
  dot_S1000000x256_S256x128_S1000000x128_1_0_0_1_n_n_wf : DotDims.WF S1000000x256 S256x128 S1000000x128 [1] [0] [0] [1] [] []
  dot_S1000000x128_S128x64_S1000000x64_1_0_0_1_n_n_wf : DotDims.WF S1000000x128 S128x64 S1000000x64 [1] [0] [0] [1] [] []

variable [Facts₀]

def gather_S16x64_S1000000x1_S1000000x64_1_0_n_n_0_1_164 : GatherDims S16x64 S1000000x1 S1000000x64 where
  offsetDims := [1]
  collapsedSliceDims := [0]
  operandBatchingDims := []
  startIndicesBatchingDims := []
  startIndexMap := [0]
  indexVectorDim := 1
  sliceSizes := ![1, 64]
  wf := gather_S16x64_S1000000x1_S1000000x64_1_0_n_n_0_1_164_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.Spec.lean ====
/-
  The mathematics both programs compute, stated once over plain index functions.

  An edge `e` of one million carries three feature rows of width 64 (source node, destination node, edge
  attribute) and a graph label `g e` below 16; its input to the network is the row of width 256
  `[src e | dest e | edge e | u (g e)]`. The network is two affine layers with a rectified linear unit between
  them: `out e o = (∑ h < 128, max (pre e h + b1 h) 0 · W2 h o) + b2 o`, where
  `pre e h = ∑ k < 256, row e k · W1 k h`. The sum over the 256 inputs is written here as its four chunks of
  64, grouped as the packed program groups them (source with destination, edge attribute with the gathered
  graph row); addition of extended reals is commutative and associative, so any other grouping is the same
  number.

  The packed program handles two consecutive edges `2i`, `2i+1` as one row of width 128 (256 in the hidden
  layer) and multiplies by block-diagonal copies of the weights; `payRow` is what it computes for one packed
  row, as a function of that row's entries and the packed weights.
-/
import Idealize.ShloMosaic.Lib.ValueIdx
import Idealize.ShloMosaic.PureOps.Ideal
import Mathlib.Algebra.BigOperators.Fin

noncomputable section

namespace Cert.EdgeMlp

open Idealize.ShloMosaic Idealize.ShloMosaic.ValueIdx

/-- A matrix of extended reals with `n` rows and `m` columns, as the printed programs index it. -/
abbrev A2 (n m : ℕ) : Type := (⟨2, ![n, m]⟩ : Shape).Idx → EReal
/-- A vector of extended reals of length `n`. -/
abbrev A1 (n : ℕ) : Type := (⟨1, ![n]⟩ : Shape).Idx → EReal

section Plain
variable (src dest edge : A2 1000000 64) (u : A2 16 64) (g : Fin 1000000 → Fin 16)
  (W1 : A2 256 128) (b1 : A1 128) (W2 : A2 128 64) (b2 : A1 64)

/-- The first layer's product for edge `e` and hidden unit `h`: the four chunks of the 256 inputs. -/
def pre1 (e : Fin 1000000) (h : Fin 128) : EReal :=
  ((∑ k : Fin 64, src (ix2 e k) * W1 (ix2 (⟨k.val, by omega⟩ : Fin 256) h))
    + (∑ k : Fin 64, dest (ix2 e k) * W1 (ix2 (⟨64 + k.val, by omega⟩ : Fin 256) h)))
  + ((∑ k : Fin 64, edge (ix2 e k) * W1 (ix2 (⟨128 + k.val, by omega⟩ : Fin 256) h))
    + (∑ k : Fin 64, u (ix2 (g e) k) * W1 (ix2 (⟨192 + k.val, by omega⟩ : Fin 256) h)))

/-- The hidden activation: bias added, negative part cut. -/
def hid (e : Fin 1000000) (h : Fin 128) : EReal :=
  max (pre1 src dest edge u g W1 e h + b1 (ix1 h)) 0

/-- The network's output for edge `e`, component `o`. -/
def mlp (e : Fin 1000000) (o : Fin 64) : EReal :=
  (∑ h : Fin 128, hid src dest edge u g W1 b1 e h * W2 (ix2 h o)) + b2 (ix1 o)

/-- The same as an array over the result's index type. -/
def mlpArr : A2 1000000 64 := fun i =>
  mlp src dest edge u g W1 b1 W2 b2 ⟨(i 0).val, idx2_lt0 i⟩ ⟨(i 1).val, idx2_lt1 i⟩

theorem mlpArr_ix2 (e : Fin 1000000) (o : Fin 64) :
    mlpArr src dest edge u g W1 b1 W2 b2 (ix2 e o) = mlp src dest edge u g W1 b1 W2 b2 e o := rfl

end Plain

section Packed

/-- Entry `q` of a packed row's selector: lane `q` of 32 asks whether the label of the row's edge `q / 16`
    is `q % 16`. -/
def onehot (bp : Fin 2 → BitVec 32) (q : Fin 32) : EReal :=
  if bp ⟨q.val / 16, by omega⟩ = BitVec.ofNat 32 (q.val % 16) then 1 else 0

/-- The packed graph rows a selector row `oh` of width 32 picks: the selector times the block-diagonal copy
    of `u`. -/
def uexpSel (oh : Fin 32 → EReal) (U : A2 32 128) (j : Fin 128) : EReal :=
  ∑ q : Fin 32, oh q * U (ix2 q j)

/-- Two rows of width 128 side by side. -/
def cat2 (a b : Fin 128 → EReal) (k : Fin 256) : EReal :=
  if h : k.val < 128 then a ⟨k.val, h⟩ else b ⟨k.val - 128, by omega⟩

/-- What the packed program computes for one packed row: entry `j` of 128 from the row's three feature
    rows `a0 a1 a2` of width 128, its selector row `oh`, and the packed weights. -/
def payRowSel (a0 a1 a2 : Fin 128 → EReal) (oh : Fin 32 → EReal) (U : A2 32 128) (Wsd Weu : A2 256 256)
    (b1p : A2 1 256) (W2p : A2 256 128) (b2p : A2 1 128) (j : Fin 128) : EReal :=
  (∑ h : Fin 256,
      max (((∑ k : Fin 256, cat2 a0 a1 k * Wsd (ix2 k h))
            + (∑ k : Fin 256, cat2 a2 (uexpSel oh U) k * Weu (ix2 k h)))
          + b1p (ix2 (0 : Fin 1) h)) 0
        * W2p (ix2 h j))
    + b2p (ix2 (0 : Fin 1) j)

/-- The same from the row's two labels `bp`: the selector is their one-hot encoding. -/
def payRow (a0 a1 a2 : Fin 128 → EReal) (bp : Fin 2 → BitVec 32) (U : A2 32 128) (Wsd Weu : A2 256 256)
    (b1p : A2 1 256) (W2p : A2 256 128) (b2p : A2 1 128) (j : Fin 128) : EReal :=
  payRowSel a0 a1 a2 (onehot bp) U Wsd Weu b1p W2p b2p j

end Packed

end Cert.EdgeMlp

end
-- ==== Proof.Selector.lean ====
/-
  The selector the kernel body builds from a packed row's two labels, read at an index.

  Lane `q` of 32 belongs to edge `q / 16` of the row's pair (the body computes the floor quotient of the lane
  number by 16 with the usual sign correction, which on the lane numbers 0 to 31 is plain division) and stands
  for label `q % 16` (the lane number less 16 times that quotient). The selector is 1 on the lanes whose label
  is the edge's and 0 elsewhere: a comparison widened to an integer and read as an extended real.
-/
import proofs.«416944_j49830210568747_3_alg».proof.Proof.Gen.KernelIdeal.Skeleton
import proofs.«416944_j49830210568747_3_alg».proof.Proof.Spec
import Idealize.ShloMosaic.Lib.Pipeline.Value
import Idealize.ShloMosaic.Lib.ValueIdx

noncomputable section

namespace Cert.KernelIdeal.Body

open Cert.KernelIdeal Cert.KernelIdeal.Gen Idealize.ShloMosaic
open Idealize.ShloMosaic.ValueIdx Cert.EdgeMlp

/-- The floor quotient of a lane number by 16, as the body computes it: the quotient rounded toward zero, less one
    when the operands' signs differ and the remainder is not zero. -/
def sel_group (a : BitVec 32) : BitVec 32 :=
  Scalar.select
    (IntOp.andi
      (IntOp.cmpi .ne
        (IntOp.subi ((IntOp.cmpi .sgt a 0#32).setWidth 32) ((IntOp.cmpi .slt a 0#32).setWidth 32))
        (Scalar.subi (Scalar.extui (Scalar.cmpi .sgt 16#32 0#32)) (Scalar.extui (Scalar.cmpi .slt 16#32 0#32))))
      (IntOp.cmpi .ne (IntOp.remsi .vector a 16#32) 0#32))
    (IntOp.subi (IntOp.divsi .vector a 16#32) 1#32)
    (IntOp.divsi .vector a 16#32)

/-- The lane number less 16 times its floor quotient by 16. -/
def sel_local (a : BitVec 32) : BitVec 32 := IntOp.subi a (IntOp.muli (sel_group a) 16#32)

/-- On the lane numbers 0 to 31 the floor quotient is plain division by 16. -/
theorem sel_group_lane : ∀ q : Fin 32, sel_group (BitVec.ofNat 32 q.val) = BitVec.ofNat 32 (q.val / 16) := by
  decide +kernel

/-- On the lane numbers 0 to 31 what is left is the remainder modulo 16. -/
theorem sel_local_lane : ∀ q : Fin 32, sel_local (BitVec.ofNat 32 q.val) = BitVec.ofNat 32 (q.val % 16) := by
  decide +kernel

/-- The column of the labels cut out at the offsets `off`, broadcast along the 32 lanes, as the body builds it. -/
def sel_col (x3 : Vec Ideal S2000x2 .i32) (off : Fin 2 → Nat) (h : S2000x2.Slices off S2000x1) : IVec S2000x32 32 :=
  broadcastTo S2000x32
    (shapeCast S2000x1
      (extractStridedSlice S2000x1 off (shapeCast S2000x2 (x3 : IVec S2000x2 32) shapeCasts_S2000x2_S2000x2) h)
      shapeCasts_S2000x1_S2000x1)
    broadcasts_S2000x1_S2000x32

/-- The body's selector at an index: every operation after the lane numbers and the label columns is pointwise. -/
theorem sel_pay_pointwise (x3 : Vec Ideal S2000x2 .i32) (i : S2000x32.Idx) :
    (k0_pay2 (F := Ideal) x3 : S2000x32.Idx → EReal) i
      = (((((IntOp.cmpi .eq
              (Scalar.select (IntOp.cmpi .eq (sel_group (iota .tc S2000x32 32 [1] iota_S2000x32_d1_w32 i)) 0#32)
                (sel_col x3 ![0, 0] slices_S2000x2_o0_0_S2000x1 i) (sel_col x3 ![0, 1] slices_S2000x2_o0_1_S2000x1 i))
              (sel_local (iota .tc S2000x32 32 [1] iota_S2000x32_d1_w32 i))).setWidth 32).toInt : ℤ) : ℝ) : EReal) := rfl

/-- Column `c` of the labels broadcast along the lanes reads, at row `r` and any lane, the row's label `c`. -/
theorem sel_col_apply (x3 : Vec Ideal S2000x2 .i32) (c : Fin 2) (h : S2000x2.Slices ![0, c.val] S2000x1)
    (r : Fin 2000) (q : Fin 32) :
    sel_col x3 ![0, c.val] h (ix2 r q) = (x3 : S2000x2.Idx → BitVec 32) (ix2 r c) := by
  unfold sel_col
  refine (broadcastTo_apply _ _ (ix2 r q) (ix2 r (0 : Fin 1)) fun a => ?_).trans ?_
  · match a with
    | ⟨0, _⟩ => rfl
    | ⟨1, _⟩ => rfl
  rw [shapeCast_self, shapeCast_self]
  refine extractStridedSlice_apply _ _ _ (ix2 r (0 : Fin 1)) (ix2 r c) fun a => ?_
  match a with
  | ⟨0, _⟩ => exact (Nat.zero_add r.val).symm
  | ⟨1, _⟩ => rfl

/-- The comparison of two words for equality is the bit of their equality. -/
theorem sel_cmpi_eq (a b : BitVec 32) : IntOp.cmpi .eq a b = if a = b then 1#1 else 0#1 := by
  by_cases h : a = b
  · subst h
    rw [if_pos rfl]
    show BitVec.ofBool (a == a) = 1#1
    rw [beq_self_eq_true]; rfl
  · rw [if_neg h]
    show BitVec.ofBool (a == b) = 0#1
    rw [beq_eq_false_iff_ne.mpr h]; rfl

/-- That bit widened to a word and read as a signed integer is 1 or 0. -/
theorem sel_cmpi_eq_real (a b : BitVec 32) :
    (((((IntOp.cmpi .eq a b).setWidth 32).toInt : ℤ) : ℝ) : EReal) = if a = b then 1 else 0 := by
  rw [sel_cmpi_eq]
  by_cases h : a = b
  · rw [if_pos h, if_pos h]
    have : ((1#1).setWidth 32).toInt = 1 := by decide
    rw [this]; norm_num
  · rw [if_neg h, if_neg h]
    have : ((0#1).setWidth 32).toInt = 0 := by decide
    rw [this]; norm_num

/-- The select on "the lane's edge is edge 0" picks the label of the lane's edge. -/
theorem sel_pick (bp : Fin 2 → BitVec 32) (q : Fin 32) :
    Scalar.select (IntOp.cmpi .eq (BitVec.ofNat 32 (q.val / 16)) 0#32) (bp 0) (bp 1) = bp ⟨q.val / 16, by omega⟩ := by
  have hq : q.val / 16 = 0 ∨ q.val / 16 = 1 := by omega
  rcases hq with h | h
  · have e : (⟨q.val / 16, by omega⟩ : Fin 2) = 0 := Fin.ext h
    rw [e, h]
    exact select_one _ _
  · have e : (⟨q.val / 16, by omega⟩ : Fin 2) = 1 := Fin.ext h
    rw [e, h]
    exact select_zero _ _

theorem selector_apply (x3 : Vec Ideal S2000x2 .i32) (r : Fin 2000) (q : Fin 32) :
    (k0_pay2 (F := Ideal) x3 : S2000x32.Idx → EReal) (ix2 r q)
      = onehot (fun p : Fin 2 => (x3 : S2000x2.Idx → BitVec 32) (ix2 r p)) q := by
  rw [sel_pay_pointwise, iota_single_apply]
  show (((((IntOp.cmpi .eq
              (Scalar.select (IntOp.cmpi .eq (sel_group (BitVec.ofNat 32 q.val)) 0#32)
                (sel_col x3 ![0, (0 : Fin 2).val] slices_S2000x2_o0_0_S2000x1 (ix2 r q))
                (sel_col x3 ![0, (1 : Fin 2).val] slices_S2000x2_o0_1_S2000x1 (ix2 r q)))
              (sel_local (BitVec.ofNat 32 q.val))).setWidth 32).toInt : ℤ) : ℝ) : EReal) = _
  rw [sel_group_lane, sel_local_lane, sel_col_apply, sel_col_apply, sel_cmpi_eq_real,
    sel_pick (fun p : Fin 2 => (x3 : S2000x2.Idx → BitVec 32) (ix2 r p)) q]
  rfl

end Cert.KernelIdeal.Body

end
-- ==== Proof.Stored.lean ====
/-
  The value the kernel body stores, read at an index: entry `(r, j)` of the output block is the two-layer
  network of Spec.lean's `payRowSel` applied to row `r` of the three feature blocks and of the selector and to
  the packed weights. At the ideal values each matrix product into a zero accumulator is the plain sum over
  the contracted index, a change of float format is the identity, a concatenation along the columns reads
  its left or right piece, and a row broadcast reads the row.
-/
import proofs.«416944_j49830210568747_3_alg».proof.Proof.Gen.KernelIdeal.Skeleton
import proofs.«416944_j49830210568747_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic
open Idealize.ShloMosaic.ValueIdx Cert.EdgeMlp

/-! ## Each matrix product into a zero accumulator is the sum over the contracted index -/

theorem sto_lhs_sel_0 (i : S2000x128.Idx) (q : dot_S2000x32_S32x128_S2000x128_1_0_0_1_n_n.contr.Idx) :
    (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
theorem sto_lhs_sel_1 (i : S2000x128.Idx) (q : dot_S2000x32_S32x128_S2000x128_1_0_0_1_n_n.contr.Idx) :
    (dot_S2000x32_S32x128_S2000x128_1_0_0_1_n_n.lhsIdx i q 1).val = (q ⟨0, by decide⟩).val :=
  dot_S2000x32_S32x128_S2000x128_1_0_0_1_n_n.lhsIdx_val_of_single rfl i q
theorem sto_rhs_sel_0 (i : S2000x128.Idx) (q : dot_S2000x32_S32x128_S2000x128_1_0_0_1_n_n.contr.Idx) :
    (dot_S2000x32_S32x128_S2000x128_1_0_0_1_n_n.rhsIdx i q 0).val = (q ⟨0, by decide⟩).val :=
  dot_S2000x32_S32x128_S2000x128_1_0_0_1_n_n.rhsIdx_val_of_single rfl i q
theorem sto_rhs_sel_1 (i : S2000x128.Idx) (q : dot_S2000x32_S32x128_S2000x128_1_0_0_1_n_n.contr.Idx) :
    (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl
/-- The selector block times the packed graph rows, into a zero accumulator: the sum over the 32 selector lanes. -/
theorem sto_matmul_sel (lhs : FVec Ideal S2000x32 .bf16) (rhs : FVec Ideal S32x128 .bf16) (r : Fin 2000) (j : Fin 128) :
    (matmul dot_S2000x32_S32x128_S2000x128_1_0_0_1_n_n none lhs rhs (constant S2000x128 .f32 0x00000000#32) : S2000x128.Idx → EReal) (ix2 r j)
      = ∑ k : Fin 32, (lhs : S2000x32.Idx → EReal) (ix2 r k) * (rhs : S32x128.Idx → EReal) (ix2 k j) := by
  show FloatOps.matmul dot_S2000x32_S32x128_S2000x128_1_0_0_1_n_n none lhs rhs (constant S2000x128 .f32 0x00000000#32) (ix2 r j) = _
  rw [Ideal.matmul_constant_zero_apply, ← Equiv.sum_comp (ValueIdx.contrEquiv1 dot_S2000x32_S32x128_S2000x128_1_0_0_1_n_n 32 rfl rfl).symm]
  refine Finset.sum_congr rfl fun k _ => ?_
  have hk := ValueIdx.contrEquiv1_symm_val dot_S2000x32_S32x128_S2000x128_1_0_0_1_n_n 32 rfl rfl k
  have el : dot_S2000x32_S32x128_S2000x128_1_0_0_1_n_n.lhsIdx (ix2 r j) ((ValueIdx.contrEquiv1 dot_S2000x32_S32x128_S2000x128_1_0_0_1_n_n 32 rfl rfl).symm k) = ix2 r k := funext fun a => Fin.ext (by
    match a with
    | ⟨0, _⟩ => exact sto_lhs_sel_0 _ _
    | ⟨1, _⟩ => exact (sto_lhs_sel_1 _ _).trans hk)
  have er : dot_S2000x32_S32x128_S2000x128_1_0_0_1_n_n.rhsIdx (ix2 r j) ((ValueIdx.contrEquiv1 dot_S2000x32_S32x128_S2000x128_1_0_0_1_n_n 32 rfl rfl).symm k) = ix2 k j := funext fun a => Fin.ext (by
    match a with
    | ⟨0, _⟩ => exact (sto_rhs_sel_0 _ _).trans hk
    | ⟨1, _⟩ => exact sto_rhs_sel_1 _ _)
  rw [el, er]

theorem sto_lhs_hid_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem sto_lhs_hid_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem sto_rhs_hid_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem sto_rhs_hid_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
/-- A row of width 256 times a first-layer weight block, into a zero accumulator: the sum over the 256 inputs. -/
theorem sto_matmul_hid (lhs : FVec Ideal S2000x256 .bf16) (rhs : FVec Ideal S256x256 .bf16) (r : Fin 2000) (j : Fin 256) :
    (matmul dot_S2000x256_S256x256_S2000x256_1_0_0_1_n_n none lhs rhs (constant S2000x256 .f32 0x00000000#32) : S2000x256.Idx → EReal) (ix2 r j)
      = ∑ k : Fin 256, (lhs : S2000x256.Idx → EReal) (ix2 r k) * (rhs : S256x256.Idx → EReal) (ix2 k j) := by
  show FloatOps.matmul dot_S2000x256_S256x256_S2000x256_1_0_0_1_n_n none lhs rhs (constant S2000x256 .f32 0x00000000#32) (ix2 r j) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r j) ((ValueIdx.contrEquiv1 dot_S2000x256_S256x256_S2000x256_1_0_0_1_n_n 256 rfl rfl).symm k) = ix2 r k := funext fun a => Fin.ext (by
    match a with
    | ⟨0, _⟩ => exact sto_lhs_hid_0 _ _
    | ⟨1, _⟩ => exact (sto_lhs_hid_1 _ _).trans hk)
  have er : dot_S2000x256_S256x256_S2000x256_1_0_0_1_n_n.rhsIdx (ix2 r j) ((ValueIdx.contrEquiv1 dot_S2000x256_S256x256_S2000x256_1_0_0_1_n_n 256 rfl rfl).symm k) = ix2 k j := funext fun a => Fin.ext (by
    match a with
    | ⟨0, _⟩ => exact (sto_rhs_hid_0 _ _).trans hk
    | ⟨1, _⟩ => exact sto_rhs_hid_1 _ _)
  rw [el, er]

theorem sto_lhs_out_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem sto_lhs_out_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem sto_rhs_out_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem sto_rhs_out_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- The hidden row times the second-layer weights, into a zero accumulator: the sum over the 256 hidden units. -/
theorem sto_matmul_out (lhs : FVec Ideal S2000x256 .bf16) (rhs : FVec Ideal S256x128 .bf16) (r : Fin 2000) (j : Fin 128) :
    (matmul dot_S2000x256_S256x128_S2000x128_1_0_0_1_n_n none lhs rhs (constant S2000x128 .f32 0x00000000#32) : S2000x128.Idx → EReal) (ix2 r j)
      = ∑ k : Fin 256, (lhs : S2000x256.Idx → EReal) (ix2 r k) * (rhs : S256x128.Idx → EReal) (ix2 k j) := by
  show FloatOps.matmul dot_S2000x256_S256x128_S2000x128_1_0_0_1_n_n none lhs rhs (constant S2000x128 .f32 0x00000000#32) (ix2 r j) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j) ((ValueIdx.contrEquiv1 dot_S2000x256_S256x128_S2000x128_1_0_0_1_n_n 256 rfl rfl).symm k) = ix2 r k := funext fun a => Fin.ext (by
    match a with
    | ⟨0, _⟩ => exact sto_lhs_out_0 _ _
    | ⟨1, _⟩ => exact (sto_lhs_out_1 _ _).trans hk)
  have er : dot_S2000x256_S256x128_S2000x128_1_0_0_1_n_n.rhsIdx (ix2 r j) ((ValueIdx.contrEquiv1 dot_S2000x256_S256x128_S2000x128_1_0_0_1_n_n 256 rfl rfl).symm k) = ix2 k j := funext fun a => Fin.ext (by
    match a with
    | ⟨0, _⟩ => exact (sto_rhs_out_0 _ _).trans hk
    | ⟨1, _⟩ => exact sto_rhs_out_1 _ _)
  rw [el, er]

/-! ## The layout operations at an index -/

/-- Two blocks of width 128 side by side, read at `(r, k)`: the left block's row below column 128, the right
    block's row from there on. -/
theorem sto_cat_apply (x y : FVec Ideal S2000x128 .bf16) (h : Shape.Concatenates [S2000x128, S2000x128] S2000x256 1)
    (r : Fin 2000) (k : Fin 256) :
    (concatenate S2000x256 1 [⟨S2000x128, x⟩, ⟨S2000x128, y⟩] h : S2000x256.Idx → EReal) (ix2 r k)
      = cat2 (fun c : Fin 128 => (x : S2000x128.Idx → EReal) (ix2 r c)) (fun c : Fin 128 => (y : S2000x128.Idx → EReal) (ix2 r c)) k := by
  unfold cat2
  split
  · next hk =>
    exact concatenate_pair_apply_left (1 : Fin S2000x256.rank) x y h (ix2 r k) rfl (ix2 r (⟨k.val, hk⟩ : Fin 128)) (fun b => by
      match b with
      | ⟨0, _⟩ => rfl
      | ⟨1, _⟩ => rfl)
  · next hk =>
    exact concatenate_pair_apply_right (1 : Fin S2000x256.rank) x y h (ix2 r k) rfl rfl
      (ix2 r (⟨k.val - 128, by have := k.isLt; omega⟩ : Fin 128)) (fun b hb => by
        match b, hb with
        | ⟨0, _⟩, _ => rfl
        | ⟨1, _⟩, hb => exact absurd rfl hb)
      (by show (k.val - 128) + 128 = k.val; omega)

/-- A row broadcast over the block's rows (through an identity shape cast) reads the row. -/
theorem sto_row_apply {a b : ℕ} (v : (⟨2, ![1, b]⟩ : Shape).Idx → EReal) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

/-- A feature block (through an identity shape cast and a change of float format) reads itself. -/
theorem sto_feat_apply (v : Vec Ideal S2000x128 .f32) (hc : S2000x128.ShapeCasts S2000x128) (hb : FTy.bits .bf16 < FTy.bits .f32)
    (i : S2000x128.Idx) :
    ((truncf .bf16 (shapeCast S2000x128 v hc : FVec Ideal S2000x128 .f32) hb : FVec Ideal S2000x128 .bf16) : S2000x128.Idx → EReal) i
      = (v : S2000x128.Idx → EReal) i := by
  rw [shapeCast_self]
  rfl

theorem stored_apply (v42 : FVec Ideal S2000x32 .bf16) (v44 : FVec Ideal S32x128 .bf16)
    (v47 v50 v53 : Vec Ideal S2000x128 .f32) (v58 v61 : Vec Ideal S256x256 .bf16) (v65 : Vec Ideal S1x256 .f32)
    (v72 : Vec Ideal S256x128 .bf16) (v75 : Vec Ideal S1x128 .f32) (r : Fin 2000) (j : Fin 128) :
    (k0_pay1 (F := Ideal) v42 v44 (constant S2000x128 .f32 0x00000000#32) v47 v50 v53 v58 v61 v65 v72 v75 : S2000x128.Idx → EReal) (ix2 r j)
      = payRowSel (fun k : Fin 128 => (v47 : S2000x128.Idx → EReal) (ix2 r k))
          (fun k : Fin 128 => (v50 : S2000x128.Idx → EReal) (ix2 r k))
          (fun k : Fin 128 => (v53 : S2000x128.Idx → EReal) (ix2 r k))
          (fun q : Fin 32 => (v42 : S2000x32.Idx → EReal) (ix2 r q))
          v44 v58 v61 v65 v72 v75 j := by
  unfold k0_pay1 payRowSel
  refine (addf_apply _ _ _).trans (congrArg₂ (· + ·) ?_ ?_)
  · refine (sto_matmul_out _ _ r j).trans (Finset.sum_congr rfl fun h _ => congrArg₂ (· * ·) ?_ ?_)
    · refine (maximumf_apply _ _ _).trans (congrArg₂ max ?_ ?_)
      · refine (addf_apply _ _ _).trans (congrArg₂ (· + ·) ((addf_apply _ _ _).trans (congrArg₂ (· + ·) ?_ ?_)) ?_)
        · refine (sto_matmul_hid _ _ r h).trans (Finset.sum_congr rfl fun k _ => congrArg₂ (· * ·) ?_ ?_)
          · refine (sto_cat_apply _ _ _ r k).trans ?_
            exact congrArg₂ (fun a b => cat2 a b k) (funext fun c => sto_feat_apply v47 _ _ _)
              (funext fun c => sto_feat_apply v50 _ _ _)
          · exact congrFun (shapeCast_self v58 _) _
        · refine (sto_matmul_hid _ _ r h).trans (Finset.sum_congr rfl fun k _ => congrArg₂ (· * ·) ?_ ?_)
          · refine (sto_cat_apply _ _ _ r k).trans ?_
            exact congrArg₂ (fun a b => cat2 a b k) (funext fun c => sto_feat_apply v53 _ _ _)
              (funext fun c => sto_matmul_sel v42 v44 r c)
          · exact congrFun (shapeCast_self v61 _) _
        · exact sto_row_apply v65 _ _ r h
      · exact Ideal.ofBits_zero_f32
    · exact congrFun (shapeCast_self v72 _) _
  · exact sto_row_apply v75 _ _ r j

end Cert.KernelIdeal.Body

end
-- ==== Proof.Blocks.lean ====
/-
  The kernel region's result array as ONE function of the arrays the region finds.

  The grid has 250 points; point `t` reads rows `2000 t … 2000 t + 1999` of the three packed feature arrays
  and of the packed labels, reads every packed weight whole, and writes back rows `2000 t … 2000 t + 1999`
  of the result. The body works row by row, so row `R` of the result is Spec.lean's `payRow` of row `R` of
  the inputs, whatever point it belongs to; the 250 blocks tile the result's 500000 rows.
-/
import proofs.«416944_j49830210568747_3_alg».proof.Proof.Gen.KernelIdeal.Frame
import proofs.«416944_j49830210568747_3_alg».proof.Proof.Spec
import proofs.«416944_j49830210568747_3_alg».proof.Proof.Selector
import proofs.«416944_j49830210568747_3_alg».proof.Proof.Stored
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ)

theorem hz : (![0, 0] : Fin 2 → Nat) = fun _ => 0 := funext fun a => by fin_cases a <;> rfl

/-- The printed index maps over the grid: the streamed windows sit at block row `t`, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row `r` of point `t`'s block of the first feature array is row `2000 t + r` of the array. -/
theorem blk0_apply (c : Dev nD) (t : Fin cfg0.N) (r : Fin 2000) (k : Fin 128) (R : Fin 500000) (hR : R.val = 2000 * t.val + r.val) :
    (iblk m c 0 t : Vec Ideal S2000x128 .f32) (ix2 r k) = (V m c main_v0 : S500000x128.Idx → EReal) (ix2 R k) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 2000 + 1 * r.val = R.val; omega
  | ⟨1, _⟩ => show win0_0.index t 1 * 128 + 1 * k.val = k.val; omega

/-- The same for the second feature array. -/
theorem blk1_apply (c : Dev nD) (t : Fin cfg0.N) (r : Fin 2000) (k : Fin 128) (R : Fin 500000) (hR : R.val = 2000 * t.val + r.val) :
    (iblk m c 1 t : Vec Ideal S2000x128 .f32) (ix2 r k) = (V m c main_v1 : S500000x128.Idx → EReal) (ix2 R k) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 2000 + 1 * r.val = R.val; omega
  | ⟨1, _⟩ => show win0_1.index t 1 * 128 + 1 * k.val = k.val; omega

/-- The same for the third feature array. -/
theorem blk2_apply (c : Dev nD) (t : Fin cfg0.N) (r : Fin 2000) (k : Fin 128) (R : Fin 500000) (hR : R.val = 2000 * t.val + r.val) :
    (iblk m c 2 t : Vec Ideal S2000x128 .f32) (ix2 r k) = (V m c main_v2 : S500000x128.Idx → EReal) (ix2 R k) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 2000 + 1 * r.val = R.val; omega
  | ⟨1, _⟩ => show win0_2.index t 1 * 128 + 1 * k.val = k.val; omega

/-- Row `r` of point `t`'s block of the packed labels is row `2000 t + r` of the array. -/
theorem blk3_apply (c : Dev nD) (t : Fin cfg0.N) (r : Fin 2000) (p : Fin 2) (R : Fin 500000) (hR : R.val = 2000 * t.val + r.val) :
    (iblk m c 3 t : Vec Ideal S2000x2 .i32) (ix2 r p) = (V m c main_v4 : S500000x2.Idx → BitVec 32) (ix2 R p) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_3.index t 0 * 2000 + 1 * r.val = R.val; omega
  | ⟨1, _⟩ => show win0_3.index t 1 * 2 + 1 * p.val = p.val; omega

/-- Every point's block of a packed weight is the whole weight. -/
theorem blk4_eq (c : Dev nD) (t : Fin cfg0.N) :
    (iblk m c 4 t : Vec Ideal S32x128 .bf16) = (V m c main_v33 : S32x128.Idx → EReal) := by
  obtain ⟨-, -, -, -, -, -, -, -, e0, e1, -⟩ := idx_facts t
  funext y
  unfold iblk
  rw [View.read_apply]
  show V m c main_v33 _ = V m c main_v33 _
  congr 1
  funext a
  apply Fin.ext
  match a with
  | ⟨0, _⟩ => show win0_4.index t 0 * 32 + 1 * (y 0).val = (y 0).val; omega
  | ⟨1, _⟩ => show win0_4.index t 1 * 128 + 1 * (y 1).val = (y 1).val; omega

theorem blk5_eq (c : Dev nD) (t : Fin cfg0.N) :
    (iblk m c 5 t : Vec Ideal S256x256 .bf16) = (V m c main_v26 : S256x256.Idx → EReal) := by
  obtain ⟨-, -, -, -, -, -, -, -, -, -, e0, e1, -⟩ := idx_facts t
  funext y
  unfold iblk
  rw [View.read_apply]
  show V m c main_v26 _ = V m c main_v26 _
  congr 1
  funext a
  apply Fin.ext
  match a with
  | ⟨0, _⟩ => show win0_5.index t 0 * 256 + 1 * (y 0).val = (y 0).val; omega
  | ⟨1, _⟩ => show win0_5.index t 1 * 256 + 1 * (y 1).val = (y 1).val; omega

theorem blk6_eq (c : Dev nD) (t : Fin cfg0.N) :
    (iblk m c 6 t : Vec Ideal S256x256 .bf16) = (V m c main_v28 : S256x256.Idx → EReal) := by
  obtain ⟨-, -, -, -, -, -, -, -, -, -, -, -, e0, e1, -⟩ := idx_facts t
  funext y
  unfold iblk
  rw [View.read_apply]
  show V m c main_v28 _ = V m c main_v28 _
  congr 1
  funext a
  apply Fin.ext
  match a with
  | ⟨0, _⟩ => show win0_6.index t 0 * 256 + 1 * (y 0).val = (y 0).val; omega
  | ⟨1, _⟩ => show win0_6.index t 1 * 256 + 1 * (y 1).val = (y 1).val; omega

theorem blk7_eq (c : Dev nD) (t : Fin cfg0.N) :
    (iblk m c 7 t : Vec Ideal S1x256 .f32) = (V m c main_v40 : S1x256.Idx → EReal) := by
  obtain ⟨-, -, -, -, -, -, -, -, -, -, -, -, -, -, e0, e1, -⟩ := idx_facts t
  funext y
  unfold iblk
  rw [View.read_apply]
  show V m c main_v40 _ = V m c main_v40 _
  congr 1
  funext a
  apply Fin.ext
  match a with
  | ⟨0, _⟩ => show win0_7.index t 0 * 1 + 1 * (y 0).val = (y 0).val; omega
  | ⟨1, _⟩ => show win0_7.index t 1 * 256 + 1 * (y 1).val = (y 1).val; omega

theorem blk8_eq (c : Dev nD) (t : Fin cfg0.N) :
    (iblk m c 8 t : Vec Ideal S256x128 .bf16) = (V m c main_v38 : S256x128.Idx → EReal) := by
  obtain ⟨-, -, -, -, -, -, -, -, -, -, -, -, -, -, -, -, e0, e1, -⟩ := idx_facts t
  funext y
  unfold iblk
  rw [View.read_apply]
  show V m c main_v38 _ = V m c main_v38 _
  congr 1
  funext a
  apply Fin.ext
  match a with
  | ⟨0, _⟩ => show win0_8.index t 0 * 256 + 1 * (y 0).val = (y 0).val; omega
  | ⟨1, _⟩ => show win0_8.index t 1 * 128 + 1 * (y 1).val = (y 1).val; omega

theorem blk9_eq (c : Dev nD) (t : Fin cfg0.N) :
    (iblk m c 9 t : Vec Ideal S1x128 .f32) = (V m c main_v42 : S1x128.Idx → EReal) := by
  obtain ⟨-, -, -, -, -, -, -, -, -, -, -, -, -, -, -, -, -, -, e0, e1, -⟩ := idx_facts t
  funext y
  unfold iblk
  rw [View.read_apply]
  show V m c main_v42 _ = V m c main_v42 _
  congr 1
  funext a
  apply Fin.ext
  match a with
  | ⟨0, _⟩ => show win0_9.index t 0 * 1 + 1 * (y 0).val = (y 0).val; omega
  | ⟨1, _⟩ => show win0_9.index t 1 * 128 + 1 * (y 1).val = (y 1).val; omega

/-- The result array the region leaves, as one function of the arrays it finds: row `R`, lane `j` is the
    packed row function of row `R` of the streamed arrays and of the whole packed weights. -/
def G10 (c : Dev nD) : S500000x128.Idx → EReal := fun I =>
  payRow (fun k : Fin 128 => (V m c main_v0 : S500000x128.Idx → EReal) (ix2 (⟨(I 0).val, idx2_lt0 I⟩ : Fin 500000) k))
    (fun k : Fin 128 => (V m c main_v1 : S500000x128.Idx → EReal) (ix2 (⟨(I 0).val, idx2_lt0 I⟩ : Fin 500000) k))
    (fun k : Fin 128 => (V m c main_v2 : S500000x128.Idx → EReal) (ix2 (⟨(I 0).val, idx2_lt0 I⟩ : Fin 500000) k))
    (fun p : Fin 2 => (V m c main_v4 : S500000x2.Idx → BitVec 32) (ix2 (⟨(I 0).val, idx2_lt0 I⟩ : Fin 500000) p))
    (V m c main_v33 : S32x128.Idx → EReal) (V m c main_v26 : S256x256.Idx → EReal) (V m c main_v28 : S256x256.Idx → EReal)
    (V m c main_v40 : S1x256.Idx → EReal) (V m c main_v38 : S256x128.Idx → EReal) (V m c main_v42 : S1x128.Idx → EReal)
    (⟨(I 1).val, idx2_lt1 I⟩ : Fin 128)

/-- What point `t` stores at row `r`, lane `j` of its block is `G10` at row `2000 t + r`. -/
theorem stored_row (c : Dev nD) (t : Fin cfg0.N) (r : Fin 2000) (j : Fin 128) (R : Fin 500000) (hR : R.val = 2000 * t.val + r.val) :
    (k0_pay1 (F := Ideal) (k0_pay2 (iblk m c 3 t)) (k0_pay3 (iblk m c 4 t)) (constant S2000x128 .f32 0x00000000#32)
        (iblk m c 0 t) (iblk m c 1 t) (iblk m c 2 t) (iblk m c 5 t) (iblk m c 6 t) (iblk m c 7 t) (iblk m c 8 t) (iblk m c 9 t)
        : S2000x128.Idx → EReal) (ix2 r j)
      = G10 m c (ix2 R j) := by
  refine (Body.stored_apply (k0_pay2 (iblk m c 3 t)) (k0_pay3 (iblk m c 4 t)) (iblk m c 0 t) (iblk m c 1 t) (iblk m c 2 t)
    (iblk m c 5 t) (iblk m c 6 t) (iblk m c 7 t) (iblk m c 8 t) (iblk m c 9 t) r j).trans ?_
  unfold G10 payRow
  have h0 : (fun k : Fin 128 => (iblk m c 0 t : Vec Ideal S2000x128 .f32) (ix2 r k))
      = fun k : Fin 128 => (V m c main_v0 : S500000x128.Idx → EReal) (ix2 R k) := funext fun k => blk0_apply m c t r k R hR
  have h1 : (fun k : Fin 128 => (iblk m c 1 t : Vec Ideal S2000x128 .f32) (ix2 r k))
      = fun k : Fin 128 => (V m c main_v1 : S500000x128.Idx → EReal) (ix2 R k) := funext fun k => blk1_apply m c t r k R hR
  have h2 : (fun k : Fin 128 => (iblk m c 2 t : Vec Ideal S2000x128 .f32) (ix2 r k))
      = fun k : Fin 128 => (V m c main_v2 : S500000x128.Idx → EReal) (ix2 R k) := funext fun k => blk2_apply m c t r k R hR
  have h3 : (fun q : Fin 32 => (k0_pay2 (F := Ideal) (iblk m c 3 t) : S2000x32.Idx → EReal) (ix2 r q))
      = onehot (fun p : Fin 2 => (V m c main_v4 : S500000x2.Idx → BitVec 32) (ix2 R p)) := funext fun q => by
    refine (Body.selector_apply (iblk m c 3 t) r q).trans ?_
    exact congrArg (fun bp => onehot bp q) (funext fun p => blk3_apply m c t r p R hR)
  have h4 : (k0_pay3 (F := Ideal) (iblk m c 4 t) : S32x128.Idx → EReal) = (V m c main_v33 : S32x128.Idx → EReal) := by
    unfold k0_pay3
    rw [shapeCast_self]
    exact blk4_eq m c t
  rw [h0, h1, h2, h3, h4, blk5_eq, blk6_eq, blk7_eq, blk8_eq, blk9_eq]

/-- What point `t` writes back is block `t` of `G10`. -/
theorem flushed_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz]
  simp only [View.ld_unit_zero (S := S2000x128) hz, View.ld_unit_zero (S := S2000x2) hz, View.ld_unit_zero (S := S32x128) hz,
    View.ld_unit_zero (S := S256x256) hz, View.ld_unit_zero (S := S1x256) hz, View.ld_unit_zero (S := S256x128) hz,
    View.ld_unit_zero (S := S1x128) hz]
  obtain ⟨-, -, -, -, -, -, -, -, -, -, -, -, -, -, -, -, -, -, -, -, e0, e1⟩ := idx_facts t
  have hN : grid0.N = 250 := N_0
  have ht : t.val < 250 := hN ▸ t.isLt
  funext y
  have hy0 : (y 0).val < 2000 := (y 0).isLt
  have hy1 : (y 1).val < 128 := (y 1).isLt
  have hrow := stored_row m c t ⟨(y 0).val, hy0⟩ ⟨(y 1).val, hy1⟩ ⟨2000 * t.val + (y 0).val, by omega⟩ rfl
  have ey : (ix2 (⟨(y 0).val, hy0⟩ : Fin 2000) (⟨(y 1).val, hy1⟩ : Fin 128) : S2000x128.Idx) = y :=
    funext fun a => by match a with | ⟨0, _⟩ => rfl | ⟨1, _⟩ => rfl
  have eemb : ((cfg0.win 10).blk t).view.emb y
      = (ix2 (⟨2000 * t.val + (y 0).val, by omega⟩ : Fin 500000) (⟨(y 1).val, hy1⟩ : Fin 128) : S500000x128.Idx) := by
    funext a
    apply Fin.ext
    match a with
    | ⟨0, _⟩ => show win0_10.index t 0 * 2000 + 1 * (y 0).val = 2000 * t.val + (y 0).val; omega
    | ⟨1, _⟩ => show win0_10.index t 1 * 128 + 1 * (y 1).val = (y 1).val; omega
  rw [View.read_apply, eemb, ← hrow, ey]
  rfl

/-- The 250 blocks tile the result: row `R` is in the block of point `R / 2000`. -/
theorem cover (I : S500000x128.Idx) :
    ∃ t : Fin cfg0.N, (cfg0.win 10).flush t = true ∧ I ∈ ((cfg0.win 10).blk t).view.set := by
  have hN : grid0.N = 250 := N_0
  have hI0 : (I 0).val < 500000 := (I 0).isLt
  have hI1 : (I 1).val < 128 := (I 1).isLt
  let t : Fin cfg0.N := ⟨(I 0).val / 2000, by show (I 0).val / 2000 < grid0.N; omega⟩
  obtain ⟨-, -, -, -, -, -, -, -, -, -, -, -, -, -, -, -, -, -, -, -, e0, e1⟩ := idx_facts t
  have e0' : win0_10.index t 0 = (I 0).val / 2000 := e0
  refine ⟨t, flush0_10 t, ?_⟩
  show I ∈ ((View.whole main_v43).slice (win0_10.rect t)).set
  rw [View.set_slice_whole, Rect.mem_set_unit]
  intro a
  match a with
  | ⟨0, _⟩ => show win0_10.index t 0 * 2000 ≤ (I 0).val ∧ (I 0).val < win0_10.index t 0 * 2000 + 2000; omega
  | ⟨1, _⟩ => show win0_10.index t 1 * 128 ≤ (I 1).val ∧ (I 1).val < win0_10.index t 1 * 128 + 128; omega

/-- The result array after the region is `G10`. -/
theorem final10 (c : Dev nD) : (dats m 0 c).arrAt 10 cfg0.N = G10 m c :=
  (dats m 0 c).arrAt_eq_of_cover 10 (G10 m c) (fun t _ => flushed_eq m c t) (cover)

end Cert.KernelIdeal.Blocks

end
-- ==== Proof.KernelRun.lean ====
/-
  The packed program's run with its result named.

  After the region the one remaining host line views the (500000, 128) result as (1000000, 64): entry
  `(e, o)` of the view is entry `(e / 2, 64 (e % 2) + o)` of the result. The generated frame run ends with
  every array of the region at what the blocks left (Blocks.lean: `G10`) and every other buffer at what the
  lines after the region compute from those; so the program's result is that view of `G10`, and the arguments
  are as launched.
-/
import proofs.«416944_j49830210568747_3_alg».proof.Proof.Gen.KernelIdeal.Frame
import proofs.«416944_j49830210568747_3_alg».proof.Proof.Blocks
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.Pipeline (Dat)
open Idealize.ShloMosaic.ValueIdx Cert.EdgeMlp

variable (m : (ℓ : Loc nD τ sig) → Buf (Elt Ideal) ℓ) (ρ : Dev nD → PrngReg)

/-- The program's result array: the region's result viewed as (1000000, 64). -/
def result (c : Dev nD) : S1000000x64.Idx → EReal :=
  shapeCast S1000000x64 (Blocks.G10 m c) shapeCasts_S500000x128_S1000000x64

/-- What the line after the region leaves in the program's result buffer. -/
theorem tail_eq (c : Dev nD) :
    Pipeline.afterTail₀ cfgs (dats m) 0 (V0 m) [hostOps1] c main_v44 = result m c := by
  unfold Pipeline.afterTail₀
  show StableHlo.after hostOps1 _ (Proc.devRef .tc main_v44) = _
  after_results
  have hw : Pipeline.withArrays (cfgs 0).spec c (V0 m c) (fun w => (dats m 0 c).arrAt w (cfgs 0).N) (Proc.devRef .tc main_v43)
      = Blocks.G10 m c :=
    (Pipeline.withArrays_arr spec0 launch0.win.arr_inj c (V0 m c) (fun w => (dats m 0 c).arrAt w cfg0.N) 10).trans (Blocks.final10 m c)
  rw [hw]
  rfl

/-- Every weakly fair execution of the packed program ends with its result buffer at `result` and its
    arguments as launched. -/
theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v44 (Pipeline.mem_restRefs_of main_v44 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Run

end
-- ==== Proof.HostPreA.lean ====
/-
  The packed operands of the kernel region that are re-layings of one argument, read at an index.

  Before the region the host lines view each of the three (1000000, 64) feature arrays as (500000, 128):
  row `i` of the view is rows `2i` and `2i+1` of the array side by side, so entry `(i, k)` is entry
  `(2i + k / 64, k % 64)`. The labels are clamped into `[0, 15]` and viewed as (500000, 2); on labels
  already in that range the clamp changes nothing. Each bias is laid twice in a row.
-/
import proofs.«416944_j49830210568747_3_alg».proof.Proof.Gen.KernelIdeal.Frame
import proofs.«416944_j49830210568747_3_alg».proof.Proof.Spec
import Idealize.ShloMosaic.Lib.Pipeline.Value
import Idealize.ShloMosaic.Lib.ValueIdx
import Idealize.ShloMosaic.Lib.StableHlo.Run
import Idealize.ShloMosaic.Lib.ValueLayout
import Idealize.ShloMosaic.Lib.IdealHost

noncomputable section

namespace Cert.KernelIdeal.HostPre

open Cert.KernelIdeal Cert.KernelIdeal.Gen Idealize.ShloMosaic Idealize.ShloMosaic.TcCoe Idealize.SL.Sem
open Idealize.ShloMosaic.ValueIdx Cert.EdgeMlp

variable (m : (ℓ : Loc nD τ sig) → Buf (Elt Ideal) ℓ)

/-! ### The re-layings at an index -/

/-- A (1000000, 64) array viewed as (500000, 128): row `i` of the view is rows `2i`, `2i+1` side by side. -/
theorem hpA_cast_pack {α : Type} (x : S1000000x64.Idx → α) (h : S1000000x64.ShapeCasts S500000x128)
    (i : Fin 500000) (k : Fin 128) :
    shapeCast S500000x128 x h (ix2 i k)
      = x (ix2 (⟨2 * i.val + k.val / 64, by omega⟩ : Fin 1000000) (⟨k.val % 64, by omega⟩ : Fin 64)) :=
  shapeCast_apply x h _ _ (by
    have := i.isLt; have := k.isLt
    rw [Shape.rowMajor_val_two, Shape.rowMajor_val_two]
    show (2 * i.val + k.val / 64) * 64 + k.val % 64 = i.val * 128 + k.val
    omega)

/-- A vector of a million viewed as (500000, 2): entry `(i, p)` is entry `2i + p`. -/
theorem hpA_cast_pair {α : Type} (x : S1000000.Idx → α) (h : S1000000.ShapeCasts S500000x2)
    (i : Fin 500000) (p : Fin 2) :
    shapeCast S500000x2 x h (ix2 i p) = x (ix1 (⟨2 * i.val + p.val, by omega⟩ : Fin 1000000)) :=
  shapeCast_apply x h _ _ (by
    have := i.isLt; have := p.isLt
    rw [Shape.rowMajor_val_one, Shape.rowMajor_val_two]
    show 2 * i.val + p.val = i.val * 2 + p.val
    omega)

/-- Clamping a label below 16 into `[0, 15]` changes nothing. -/
theorem hpA_clip (n : Fin 16) :
    IntOp.minsi (15#32) (IntOp.maxsi (0#32) (BitVec.ofNat 32 n.val)) = BitVec.ofNat 32 n.val := by
  revert n; decide

/-- A vector of length `a` laid twice in a row reads, at `h`, the vector at `h % a`. -/
theorem hpA_twice {α : Type} {a n : ℕ} (x : (⟨1, ![a]⟩ : Shape).Idx → α)
    (hc : Shape.Concatenates [(⟨1, ![a]⟩ : Shape), (⟨1, ![a]⟩ : Shape)] (⟨1, ![n]⟩ : Shape) 0) (hn : n = a + a)
    (h : Fin n) (hlt : h.val % a < a) :
    concatenate (⟨1, ![n]⟩ : Shape) 0 [⟨(⟨1, ![a]⟩ : Shape), x⟩, ⟨(⟨1, ![a]⟩ : Shape), x⟩] hc (ix1 h)
      = x (ix1 (⟨h.val % a, hlt⟩ : Fin a)) := by
  have hh := h.isLt
  by_cases hl : h.val < a
  · refine concatenate_pair_apply_left (0 : Fin 1) x x hc (ix1 h) rfl (ix1 (⟨h.val % a, hlt⟩ : Fin a)) ?_
    intro b
    match b with
    | ⟨0, _⟩ => show h.val % a = h.val; exact Nat.mod_eq_of_lt hl
  · refine concatenate_pair_apply_right (0 : Fin 1) x x hc (ix1 h) rfl rfl (ix1 (⟨h.val % a, hlt⟩ : Fin a)) ?_ ?_
    · intro b hb
      match b, hb with
      | ⟨0, _⟩, hb => exact absurd rfl hb
    · show h.val % a + a = h.val
      have : h.val % a = h.val - a := by
        rw [Nat.mod_eq_sub_mod (Nat.le_of_not_lt hl)]; exact Nat.mod_eq_of_lt (by omega)
      omega

/-! ### The arrays as terms of the argument arrays

Each array below is written by one host line before the region and by no later one; the fold of the host lines
read at its reference is that line's function of the argument arrays. -/

theorem hpA_v0_eq (c : Dev nD) :
    (V m c main_v0 : S500000x128.Idx → EReal)
      = shapeCast S500000x128 (m ((c : Thread nD τ).loc main_arg0)) shapeCasts_S1000000x64_S500000x128 := by
  dsimp only [Gen.V, Gen.V0]
  simp only [Gen.hostOps0, Gen.hostOps0_1, Gen.hostOps0_2, List.flatten_cons, List.flatten_nil, List.append_nil,
    List.cons_append, List.nil_append]
  after_results
  rfl

theorem hpA_v1_eq (c : Dev nD) :
    (V m c main_v1 : S500000x128.Idx → EReal)
      = shapeCast S500000x128 (m ((c : Thread nD τ).loc main_arg1)) shapeCasts_S1000000x64_S500000x128 := by
  dsimp only [Gen.V, Gen.V0]
  simp only [Gen.hostOps0, Gen.hostOps0_1, Gen.hostOps0_2, List.flatten_cons, List.flatten_nil, List.append_nil,
    List.cons_append, List.nil_append]
  after_results
  rfl

theorem hpA_v2_eq (c : Dev nD) :
    (V m c main_v2 : S500000x128.Idx → EReal)
      = shapeCast S500000x128 (m ((c : Thread nD τ).loc main_arg2)) shapeCasts_S1000000x64_S500000x128 := by
  dsimp only [Gen.V, Gen.V0]
  simp only [Gen.hostOps0, Gen.hostOps0_1, Gen.hostOps0_2, List.flatten_cons, List.flatten_nil, List.append_nil,
    List.cons_append, List.nil_append]
  after_results
  rfl

theorem hpA_v4_eq (c : Dev nD) :
    (V m c main_v4 : S500000x2.Idx → BitVec 32)
      = shapeCast S500000x2
          (minsi (broadcastInDim S1000000 ![] bcast_S_S1000000 (constantI S_ 32 15#32))
            (maxsi (broadcastInDim S1000000 ![] bcast_S_S1000000 (constantI S_ 32 0#32))
              (m ((c : Thread nD τ).loc main_arg4))))
          shapeCasts_S1000000_S500000x2 := by
  dsimp only [Gen.V, Gen.V0]
  simp only [Gen.hostOps0, Gen.hostOps0_1, Gen.hostOps0_2, List.flatten_cons, List.flatten_nil, List.append_nil,
    List.cons_append, List.nil_append]
  after_results
  rfl

theorem hpA_v40_eq (c : Dev nD) :
    (V m c main_v40 : S1x256.Idx → EReal)
      = shapeCast S1x256
          (concatenate S256 0 [⟨S128, m ((c : Thread nD τ).loc main_arg6)⟩, ⟨S128, m ((c : Thread nD τ).loc main_arg6)⟩]
            concatenates_S128_S128_S256_d0)
          shapeCasts_S256_S1x256 := by
  dsimp only [Gen.V, Gen.V0]
  simp only [Gen.hostOps0, Gen.hostOps0_1, Gen.hostOps0_2, List.flatten_cons, List.flatten_nil, List.append_nil,
    List.cons_append, List.nil_append]
  after_results
  rfl

theorem hpA_v42_eq (c : Dev nD) :
    (V m c main_v42 : S1x128.Idx → EReal)
      = shapeCast S1x128
          (concatenate S128 0 [⟨S64, m ((c : Thread nD τ).loc main_arg8)⟩, ⟨S64, m ((c : Thread nD τ).loc main_arg8)⟩]
            concatenates_S64_S64_S128_d0)
          shapeCasts_S128_S1x128 := by
  dsimp only [Gen.V, Gen.V0]
  simp only [Gen.hostOps0, Gen.hostOps0_1, Gen.hostOps0_2, List.flatten_cons, List.flatten_nil, List.append_nil,
    List.cons_append, List.nil_append]
  after_results
  rfl

/-! ### The six reads -/

theorem v0_apply (c : Dev nD) (i : Fin 500000) (k : Fin 128) :
    (V m c main_v0 : S500000x128.Idx → EReal) (ix2 i k)
      = (m ((c : Thread nD τ).loc main_arg0) : S1000000x64.Idx → EReal)
          (ix2 (⟨2 * i.val + k.val / 64, by omega⟩ : Fin 1000000) (⟨k.val % 64, by omega⟩ : Fin 64)) := by
  exact (congrFun (hpA_v0_eq m c) (ix2 i k)).trans (hpA_cast_pack _ _ i k)

theorem v1_apply (c : Dev nD) (i : Fin 500000) (k : Fin 128) :
    (V m c main_v1 : S500000x128.Idx → EReal) (ix2 i k)
      = (m ((c : Thread nD τ).loc main_arg1) : S1000000x64.Idx → EReal)
          (ix2 (⟨2 * i.val + k.val / 64, by omega⟩ : Fin 1000000) (⟨k.val % 64, by omega⟩ : Fin 64)) := by
  exact (congrFun (hpA_v1_eq m c) (ix2 i k)).trans (hpA_cast_pack _ _ i k)

theorem v2_apply (c : Dev nD) (i : Fin 500000) (k : Fin 128) :
    (V m c main_v2 : S500000x128.Idx → EReal) (ix2 i k)
      = (m ((c : Thread nD τ).loc main_arg2) : S1000000x64.Idx → EReal)
          (ix2 (⟨2 * i.val + k.val / 64, by omega⟩ : Fin 1000000) (⟨k.val % 64, by omega⟩ : Fin 64)) := by
  exact (congrFun (hpA_v2_eq m c) (ix2 i k)).trans (hpA_cast_pack _ _ i k)

theorem v4_apply (c : Dev nD) (g : Fin 1000000 → Fin 16)
    (hb : ∀ e : Fin 1000000, (m ((c : Thread nD τ).loc main_arg4) : S1000000.Idx → BitVec 32) (ix1 e) = BitVec.ofNat 32 (g e).val)
    (i : Fin 500000) (p : Fin 2) :
    (V m c main_v4 : S500000x2.Idx → BitVec 32) (ix2 i p)
      = BitVec.ofNat 32 (g (⟨2 * i.val + p.val, by omega⟩ : Fin 1000000)).val := by
  refine (congrFun (hpA_v4_eq m c) (ix2 i p)).trans ?_
  refine (hpA_cast_pair _ _ i p).trans ?_
  show IntOp.minsi (broadcastInDim S1000000 ![] bcast_S_S1000000 (constantI S_ 32 15#32) _)
      (IntOp.maxsi (broadcastInDim S1000000 ![] bcast_S_S1000000 (constantI S_ 32 0#32) _)
        ((m ((c : Thread nD τ).loc main_arg4) : S1000000.Idx → BitVec 32) _)) = _
  rw [broadcastInDim_scalar_apply, broadcastInDim_scalar_apply, hb]
  exact hpA_clip _

theorem v40_apply (c : Dev nD) (h : Fin 256) :
    (V m c main_v40 : S1x256.Idx → EReal) (ix2 (0 : Fin 1) h)
      = (m ((c : Thread nD τ).loc main_arg6) : S128.Idx → EReal) (ix1 (⟨h.val % 128, by omega⟩ : Fin 128)) := by
  refine (congrFun (hpA_v40_eq m c) (ix2 (0 : Fin 1) h)).trans ?_
  refine (shapeCast_a_1a_apply _ _ (0 : Fin 1) h).trans ?_
  exact hpA_twice (a := 128) (n := 256) _ concatenates_S128_S128_S256_d0 rfl h (by omega)

theorem v42_apply (c : Dev nD) (j : Fin 128) :
    (V m c main_v42 : S1x128.Idx → EReal) (ix2 (0 : Fin 1) j)
      = (m ((c : Thread nD τ).loc main_arg8) : S64.Idx → EReal) (ix1 (⟨j.val % 64, by omega⟩ : Fin 64)) := by
  refine (congrFun (hpA_v42_eq m c) (ix2 (0 : Fin 1) j)).trans ?_
  refine (shapeCast_a_1a_apply _ _ (0 : Fin 1) j).trans ?_
  exact hpA_twice (a := 64) (n := 128) _ concatenates_S64_S64_S128_d0 rfl j (by omega)

end Cert.KernelIdeal.HostPre

end
-- ==== Proof.HostPreB.lean ====
/-
  The packed weights of the kernel region as the host lines before it build them, read at an index.

  Each is the block-diagonal doubling of a matrix `a` with `r` rows and `c` columns: `[[a, 0], [0, a]]`,
  whose entry `(p, q)` is `a (p % r, q % c)` when `p / r = q / c` and zero otherwise. The first layer's
  weight is cut into its four row chunks of 64; the doublings of the first two are stacked into one
  (256, 256) matrix and those of the last two into another, so row `k` of a stack belongs to chunk `k / 128`
  of its pair and lies in the diagonal block `(k / 64) % 2`.
-/
import proofs.«416944_j49830210568747_3_alg».proof.Proof.Gen.KernelIdeal.Frame
import proofs.«416944_j49830210568747_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.HostPre

open Cert.KernelIdeal Cert.KernelIdeal.Gen Idealize.ShloMosaic Idealize.ShloMosaic.TcCoe Idealize.SL.Sem
open Idealize.ShloMosaic.ValueIdx Cert.EdgeMlp

/-! ## Two matrices laid end to end, read at an entry -/

section Pair
variable {α : Type}

/-- Two matrices stacked along the rows: a row of the first. -/
theorem hpB_rows_fst {r₁ r₂ R C : ℕ} (x₁ : (⟨2, ![r₁, C]⟩ : Shape).Idx → α) (x₂ : (⟨2, ![r₂, C]⟩ : Shape).Idx → α)
    (h : Shape.Concatenates [⟨2, ![r₁, C]⟩, ⟨2, ![r₂, C]⟩] ⟨2, ![R, C]⟩ (0 : Fin 2))
    (p : Fin R) (q : Fin C) (p' : Fin r₁) (hp : p'.val = p.val) :
    concatenate ⟨2, ![R, C]⟩ (0 : Fin 2) [⟨⟨2, ![r₁, C]⟩, x₁⟩, ⟨⟨2, ![r₂, C]⟩, x₂⟩] h (ix2 p q) = x₁ (ix2 p' q) :=
  concatenate_pair_apply_left (t := ⟨2, ![R, C]⟩) (0 : Fin 2) x₁ x₂ h (ix2 p q) rfl (ix2 p' q) (fun b => by
    match b with
    | ⟨0, _⟩ => exact hp
    | ⟨1, _⟩ => rfl)

/-- Two matrices stacked along the rows: a row of the second. -/
theorem hpB_rows_snd {r₁ r₂ R C : ℕ} (x₁ : (⟨2, ![r₁, C]⟩ : Shape).Idx → α) (x₂ : (⟨2, ![r₂, C]⟩ : Shape).Idx → α)
    (h : Shape.Concatenates [⟨2, ![r₁, C]⟩, ⟨2, ![r₂, C]⟩] ⟨2, ![R, C]⟩ (0 : Fin 2))
    (p : Fin R) (q : Fin C) (p' : Fin r₂) (hp : p'.val + r₁ = p.val) :
    concatenate ⟨2, ![R, C]⟩ (0 : Fin 2) [⟨⟨2, ![r₁, C]⟩, x₁⟩, ⟨⟨2, ![r₂, C]⟩, x₂⟩] h (ix2 p q) = x₂ (ix2 p' q) :=
  concatenate_pair_apply_right (t := ⟨2, ![R, C]⟩) (0 : Fin 2) x₁ x₂ h (ix2 p q) rfl rfl (ix2 p' q) (fun b hb => by
    match b, hb with
    | ⟨0, _⟩, hb => exact absurd rfl hb
    | ⟨1, _⟩, _ => rfl) (by show p'.val + r₁ = p.val; exact hp)

/-- Two matrices side by side along the columns: a column of the first. -/
theorem hpB_cols_fst {c₁ c₂ R C : ℕ} (x₁ : (⟨2, ![R, c₁]⟩ : Shape).Idx → α) (x₂ : (⟨2, ![R, c₂]⟩ : Shape).Idx → α)
    (h : Shape.Concatenates [⟨2, ![R, c₁]⟩, ⟨2, ![R, c₂]⟩] ⟨2, ![R, C]⟩ (1 : Fin 2))
    (p : Fin R) (q : Fin C) (q' : Fin c₁) (hq : q'.val = q.val) :
    concatenate ⟨2, ![R, C]⟩ (1 : Fin 2) [⟨⟨2, ![R, c₁]⟩, x₁⟩, ⟨⟨2, ![R, c₂]⟩, x₂⟩] h (ix2 p q) = x₁ (ix2 p q') :=
  concatenate_pair_apply_left (t := ⟨2, ![R, C]⟩) (1 : Fin 2) x₁ x₂ h (ix2 p q) rfl (ix2 p q') (fun b => by
    match b with
    | ⟨0, _⟩ => rfl
    | ⟨1, _⟩ => exact hq)

/-- Two matrices side by side along the columns: a column of the second. -/
theorem hpB_cols_snd {c₁ c₂ R C : ℕ} (x₁ : (⟨2, ![R, c₁]⟩ : Shape).Idx → α) (x₂ : (⟨2, ![R, c₂]⟩ : Shape).Idx → α)
    (h : Shape.Concatenates [⟨2, ![R, c₁]⟩, ⟨2, ![R, c₂]⟩] ⟨2, ![R, C]⟩ (1 : Fin 2))
    (p : Fin R) (q : Fin C) (q' : Fin c₂) (hq : q'.val + c₁ = q.val) :
    concatenate ⟨2, ![R, C]⟩ (1 : Fin 2) [⟨⟨2, ![R, c₁]⟩, x₁⟩, ⟨⟨2, ![R, c₂]⟩, x₂⟩] h (ix2 p q) = x₂ (ix2 p q') :=
  concatenate_pair_apply_right (t := ⟨2, ![R, C]⟩) (1 : Fin 2) x₁ x₂ h (ix2 p q) rfl rfl (ix2 p q') (fun b hb => by
    match b, hb with
    | ⟨0, _⟩, _ => rfl
    | ⟨1, _⟩, hb => exact absurd rfl hb) (by show q'.val + c₁ = q.val; exact hq)

end Pair

/-! ## The block-diagonal doubling -/

/-- A position below `n` has quotient zero by `n` and is its own remainder. -/
theorem hpB_div_mod_lt {n x : ℕ} (h : x < n) : x / n = 0 ∧ x % n = x :=
  ⟨Nat.div_eq_of_lt h, Nat.mod_eq_of_lt h⟩

/-- A position from `n` to below twice `n` has quotient one by `n` and remainder the position less `n`. -/
theorem hpB_div_mod_ge {n x : ℕ} (h : n ≤ x) (h2 : x < n + n) : x / n = 1 ∧ x % n = x - n := by
  have hn : 0 < n := by omega
  have e : x = (x - n) + n := by omega
  have hlt : x - n < n := by omega
  constructor
  · rw [e, Nat.add_div_right _ hn, Nat.div_eq_of_lt hlt]
  · rw [Nat.mod_eq_sub_mod h, Nat.mod_eq_of_lt hlt]

/-- The matrix `[[a, z], [z, a]]` with `z` zero, read at `(p, q)`: `a` at the remainders when the two
    quotients agree, zero otherwise. -/
theorem hpB_double {r c R C : ℕ} (hR : R = r + r) (hC : C = c + c)
    (a z : (⟨2, ![r, c]⟩ : Shape).Idx → EReal) (hz : ∀ y, z y = 0)
    (h1 : Shape.Concatenates [⟨2, ![r, c]⟩, ⟨2, ![r, c]⟩] ⟨2, ![r, C]⟩ (1 : Fin 2))
    (h0 : Shape.Concatenates [⟨2, ![r, C]⟩, ⟨2, ![r, C]⟩] ⟨2, ![R, C]⟩ (0 : Fin 2))
    (p : Fin R) (q : Fin C) (p' : Fin r) (q' : Fin c) (hp : p'.val = p.val % r) (hq : q'.val = q.val % c) :
    concatenate ⟨2, ![R, C]⟩ (0 : Fin 2)
        [⟨⟨2, ![r, C]⟩, concatenate ⟨2, ![r, C]⟩ (1 : Fin 2) [⟨⟨2, ![r, c]⟩, a⟩, ⟨⟨2, ![r, c]⟩, z⟩] h1⟩,
         ⟨⟨2, ![r, C]⟩, concatenate ⟨2, ![r, C]⟩ (1 : Fin 2) [⟨⟨2, ![r, c]⟩, z⟩, ⟨⟨2, ![r, c]⟩, a⟩] h1⟩] h0 (ix2 p q)
      = if p.val / r = q.val / c then a (ix2 p' q') else 0 := by
  have hpR := p.isLt
  have hqC := q.isLt
  by_cases hp1 : p.val < r
  · obtain ⟨dp, mp⟩ := hpB_div_mod_lt hp1
    rw [hpB_rows_fst _ _ h0 p q p' (by omega)]
    by_cases hq1 : q.val < c
    · obtain ⟨dq, mq⟩ := hpB_div_mod_lt hq1
      rw [hpB_cols_fst _ _ h1 p' q q' (by omega), if_pos (by omega)]
    · obtain ⟨dq, mq⟩ := hpB_div_mod_ge (Nat.le_of_not_lt hq1) (by omega)
      rw [hpB_cols_snd _ _ h1 p' q q' (by omega), if_neg (by omega)]
      exact hz _
  · obtain ⟨dp, mp⟩ := hpB_div_mod_ge (Nat.le_of_not_lt hp1) (by omega)
    rw [hpB_rows_snd _ _ h0 p q p' (by omega)]
    by_cases hq1 : q.val < c
    · obtain ⟨dq, mq⟩ := hpB_div_mod_lt hq1
      rw [hpB_cols_fst _ _ h1 p' q q' (by omega), if_neg (by omega)]
      exact hz _
    · obtain ⟨dq, mq⟩ := hpB_div_mod_ge (Nat.le_of_not_lt hq1) (by omega)
      rw [hpB_cols_snd _ _ h1 p' q q' (by omega), if_pos (by omega)]

/-- Two arrays laid end to end along an axis, as a function of the two arrays. -/
def hpB_cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem hpB_cat2_fold {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = hpB_cat2 t a s₁ s₂ h x₁ x₂ := rfl

/-! ## The arrays as terms of the launch contents

Each packed weight is the value of a few host lines; running those lines over the launch contents gives it as
an explicit term of the argument arrays. -/

variable (m : (ℓ : Loc nD τ sig) → Buf (Elt Ideal) ℓ)

/-- The zero block: the f32 pattern zero broadcast to any shape is the number zero everywhere. -/
theorem hpB_zero {T : Shape} (h : S_.BroadcastsInDim T ![]) (y : T.Idx) :
    (broadcastInDim T ![] h (constant (F := Ideal) S_ .f32 0x00000000#32) : T.Idx → EReal) y = 0 := by
  rw [broadcastInDim_scalar_apply]
  exact Ideal.ofBits_zero_f32

set_option maxHeartbeats 1000000 in
/-- The packed graph rows: the doubling of `u`, converted to bf16. -/
theorem hpB_v33_term (c : Dev nD) :
    (V m c main_v33 : S32x128.Idx → EReal)
      = truncf .bf16 (concatenate S32x128 0
          [⟨S16x128, concatenate S16x128 1 [⟨S16x64, (m ((c : Thread nD τ).loc main_arg3) : S16x64.Idx → EReal)⟩,
              ⟨S16x64, broadcastInDim S16x64 ![] bcast_S_S16x64 (constant (F := Ideal) S_ .f32 0x00000000#32)⟩] concatenates_S16x64_S16x64_S16x128_d1⟩,
           ⟨S16x128, concatenate S16x128 1 [⟨S16x64, broadcastInDim S16x64 ![] bcast_S_S16x64 (constant (F := Ideal) S_ .f32 0x00000000#32)⟩,
              ⟨S16x64, (m ((c : Thread nD τ).loc main_arg3) : S16x64.Idx → EReal)⟩] concatenates_S16x64_S16x64_S16x128_d1⟩]
          concatenates_S16x128_S16x128_S32x128_d0) bitsLt_bf16_f32 := by
  dsimp only [Gen.V, Gen.V0]
  simp only [Gen.hostOps0, Gen.hostOps0_1, Gen.hostOps0_2, List.flatten_cons, List.flatten_nil, List.append_nil,
    List.cons_append, List.nil_append, hpB_cat2_fold]
  after_results_simp

set_option maxHeartbeats 1000000 in
/-- The packed second-layer weight: the doubling of `W2`, converted to bf16. -/
theorem hpB_v38_term (c : Dev nD) :
    (V m c main_v38 : S256x128.Idx → EReal)
      = truncf .bf16 (concatenate S256x128 0
          [⟨S128x128, concatenate S128x128 1 [⟨S128x64, (m ((c : Thread nD τ).loc main_arg7) : S128x64.Idx → EReal)⟩,
              ⟨S128x64, broadcastInDim S128x64 ![] bcast_S_S128x64 (constant (F := Ideal) S_ .f32 0x00000000#32)⟩] concatenates_S128x64_S128x64_S128x128_d1⟩,
           ⟨S128x128, concatenate S128x128 1 [⟨S128x64, broadcastInDim S128x64 ![] bcast_S_S128x64 (constant (F := Ideal) S_ .f32 0x00000000#32)⟩,
              ⟨S128x64, (m ((c : Thread nD τ).loc main_arg7) : S128x64.Idx → EReal)⟩] concatenates_S128x64_S128x64_S128x128_d1⟩]
          concatenates_S128x128_S128x128_S256x128_d0) bitsLt_bf16_f32 := by
  dsimp only [Gen.V, Gen.V0]
  simp only [Gen.hostOps0, Gen.hostOps0_1, Gen.hostOps0_2, List.flatten_cons, List.flatten_nil, List.append_nil,
    List.cons_append, List.nil_append, hpB_cat2_fold]
  after_results_simp

set_option maxHeartbeats 1000000 in
/-- The packed first-layer weight of the source and destination chunks: the doublings of rows 0–63 and 64–127 of
    `W1`, stacked, converted to bf16. -/
theorem hpB_v26_term (c : Dev nD) :
    (V m c main_v26 : S256x256.Idx → EReal)
      = truncf .bf16 (concatenate S256x256 0
          [⟨S128x256, concatenate S128x256 0
            [⟨S64x256, concatenate S64x256 1 [⟨S64x128, (extractStridedSlice S64x128 ![0, 0] (m ((c : Thread nD τ).loc main_arg5) : S256x128.Idx → EReal) slices_S256x128_S64x128_0_0)⟩,
                ⟨S64x128, broadcastInDim S64x128 ![] bcast_S_S64x128 (constant (F := Ideal) S_ .f32 0x00000000#32)⟩] concatenates_S64x128_S64x128_S64x256_d1⟩,
             ⟨S64x256, concatenate S64x256 1 [⟨S64x128, broadcastInDim S64x128 ![] bcast_S_S64x128 (constant (F := Ideal) S_ .f32 0x00000000#32)⟩,
                ⟨S64x128, (extractStridedSlice S64x128 ![0, 0] (m ((c : Thread nD τ).loc main_arg5) : S256x128.Idx → EReal) slices_S256x128_S64x128_0_0)⟩] concatenates_S64x128_S64x128_S64x256_d1⟩]
            concatenates_S64x256_S64x256_S128x256_d0⟩,
           ⟨S128x256, concatenate S128x256 0
            [⟨S64x256, concatenate S64x256 1 [⟨S64x128, (extractStridedSlice S64x128 ![64, 0] (m ((c : Thread nD τ).loc main_arg5) : S256x128.Idx → EReal) slices_S256x128_S64x128_64_0)⟩,
                ⟨S64x128, broadcastInDim S64x128 ![] bcast_S_S64x128 (constant (F := Ideal) S_ .f32 0x00000000#32)⟩] concatenates_S64x128_S64x128_S64x256_d1⟩,
             ⟨S64x256, concatenate S64x256 1 [⟨S64x128, broadcastInDim S64x128 ![] bcast_S_S64x128 (constant (F := Ideal) S_ .f32 0x00000000#32)⟩,
                ⟨S64x128, (extractStridedSlice S64x128 ![64, 0] (m ((c : Thread nD τ).loc main_arg5) : S256x128.Idx → EReal) slices_S256x128_S64x128_64_0)⟩] concatenates_S64x128_S64x128_S64x256_d1⟩]
            concatenates_S64x256_S64x256_S128x256_d0⟩]
          concatenates_S128x256_S128x256_S256x256_d0) bitsLt_bf16_f32 := by
  dsimp only [Gen.V, Gen.V0]
  simp only [Gen.hostOps0, Gen.hostOps0_1, Gen.hostOps0_2, List.flatten_cons, List.flatten_nil, List.append_nil,
    List.cons_append, List.nil_append, hpB_cat2_fold]
  after_results_simp

set_option maxHeartbeats 1000000 in
/-- The packed first-layer weight of the edge and graph chunks: the doublings of rows 128–191 and 192–255 of
    `W1`, stacked, converted to bf16. -/
theorem hpB_v28_term (c : Dev nD) :
    (V m c main_v28 : S256x256.Idx → EReal)
      = truncf .bf16 (concatenate S256x256 0
          [⟨S128x256, concatenate S128x256 0
            [⟨S64x256, concatenate S64x256 1 [⟨S64x128, (extractStridedSlice S64x128 ![128, 0] (m ((c : Thread nD τ).loc main_arg5) : S256x128.Idx → EReal) slices_S256x128_S64x128_128_0)⟩,
                ⟨S64x128, broadcastInDim S64x128 ![] bcast_S_S64x128 (constant (F := Ideal) S_ .f32 0x00000000#32)⟩] concatenates_S64x128_S64x128_S64x256_d1⟩,
             ⟨S64x256, concatenate S64x256 1 [⟨S64x128, broadcastInDim S64x128 ![] bcast_S_S64x128 (constant (F := Ideal) S_ .f32 0x00000000#32)⟩,
                ⟨S64x128, (extractStridedSlice S64x128 ![128, 0] (m ((c : Thread nD τ).loc main_arg5) : S256x128.Idx → EReal) slices_S256x128_S64x128_128_0)⟩] concatenates_S64x128_S64x128_S64x256_d1⟩]
            concatenates_S64x256_S64x256_S128x256_d0⟩,
           ⟨S128x256, concatenate S128x256 0
            [⟨S64x256, concatenate S64x256 1 [⟨S64x128, (extractStridedSlice S64x128 ![192, 0] (m ((c : Thread nD τ).loc main_arg5) : S256x128.Idx → EReal) slices_S256x128_S64x128_192_0)⟩,
                ⟨S64x128, broadcastInDim S64x128 ![] bcast_S_S64x128 (constant (F := Ideal) S_ .f32 0x00000000#32)⟩] concatenates_S64x128_S64x128_S64x256_d1⟩,
             ⟨S64x256, concatenate S64x256 1 [⟨S64x128, broadcastInDim S64x128 ![] bcast_S_S64x128 (constant (F := Ideal) S_ .f32 0x00000000#32)⟩,
                ⟨S64x128, (extractStridedSlice S64x128 ![192, 0] (m ((c : Thread nD τ).loc main_arg5) : S256x128.Idx → EReal) slices_S256x128_S64x128_192_0)⟩] concatenates_S64x128_S64x128_S64x256_d1⟩]
            concatenates_S64x256_S64x256_S128x256_d0⟩]
          concatenates_S128x256_S128x256_S256x256_d0) bitsLt_bf16_f32 := by
  dsimp only [Gen.V, Gen.V0]
  simp only [Gen.hostOps0, Gen.hostOps0_1, Gen.hostOps0_2, List.flatten_cons, List.flatten_nil, List.append_nil,
    List.cons_append, List.nil_append, hpB_cat2_fold]
  after_results_simp

/-! ## The stack of two doublings of row chunks -/

/-- The doublings of two 64-row chunks of a matrix `W` of width 128 (rows from `o₁` and from `o₂`), stacked, read at
    `(k, h)`: row `k` lies in the chunk `k / 128` names, at row `k % 64` of it, in the diagonal block `(k / 64) % 2`. -/
theorem hpB_stack (W : S256x128.Idx → EReal) (o₁ o₂ : ℕ)
    (sl₁ : S256x128.Slices ![o₁, 0] S64x128) (sl₂ : S256x128.Slices ![o₂, 0] S64x128)
    (z : S64x128.Idx → EReal) (hz : ∀ y, z y = 0)
    (h1 : Shape.Concatenates [S64x128, S64x128] S64x256 (1 : Fin 2))
    (h0 : Shape.Concatenates [S64x256, S64x256] S128x256 (0 : Fin 2))
    (h00 : Shape.Concatenates [S128x256, S128x256] S256x256 (0 : Fin 2))
    (k h : Fin 256) (kk : Fin 256) (hh : Fin 128)
    (hk1 : k.val < 128 → kk.val = o₁ + k.val % 64) (hk2 : 128 ≤ k.val → kk.val = o₂ + k.val % 64)
    (hhh : hh.val = h.val % 128) :
    concatenate S256x256 (0 : Fin 2)
        [⟨S128x256, concatenate S128x256 (0 : Fin 2)
            [⟨S64x256, concatenate S64x256 (1 : Fin 2) [⟨S64x128, extractStridedSlice S64x128 ![o₁, 0] W sl₁⟩, ⟨S64x128, z⟩] h1⟩,
             ⟨S64x256, concatenate S64x256 (1 : Fin 2) [⟨S64x128, z⟩, ⟨S64x128, extractStridedSlice S64x128 ![o₁, 0] W sl₁⟩] h1⟩] h0⟩,
         ⟨S128x256, concatenate S128x256 (0 : Fin 2)
            [⟨S64x256, concatenate S64x256 (1 : Fin 2) [⟨S64x128, extractStridedSlice S64x128 ![o₂, 0] W sl₂⟩, ⟨S64x128, z⟩] h1⟩,
             ⟨S64x256, concatenate S64x256 (1 : Fin 2) [⟨S64x128, z⟩, ⟨S64x128, extractStridedSlice S64x128 ![o₂, 0] W sl₂⟩] h1⟩] h0⟩]
        h00 (ix2 k h)
      = if (k.val / 64) % 2 = h.val / 128 then W (ix2 kk hh) else 0 := by
  have hk := k.isLt
  have hh' := h.isLt
  by_cases hk128 : k.val < 128
  · rw [hpB_rows_fst _ _ h00 k h (⟨k.val, hk128⟩ : Fin 128) rfl,
      hpB_double (r := 64) (c := 128) rfl rfl _ z hz h1 h0 (⟨k.val, hk128⟩ : Fin 128) h
        (⟨k.val % 64, Nat.mod_lt _ (by norm_num)⟩ : Fin 64) hh rfl hhh]
    by_cases hc : k.val / 64 = h.val / 128
    · rw [if_pos hc, if_pos (by omega)]
      exact slice2_axis0_apply o₁ W sl₁ _ _ kk (hk1 hk128)
    · rw [if_neg hc, if_neg (by omega)]
  · have hge : 128 ≤ k.val := Nat.le_of_not_lt hk128
    rw [hpB_rows_snd _ _ h00 k h (⟨k.val - 128, by omega⟩ : Fin 128) (by show k.val - 128 + 128 = k.val; omega),
      hpB_double (r := 64) (c := 128) rfl rfl _ z hz h1 h0 (⟨k.val - 128, by omega⟩ : Fin 128) h
        (⟨k.val % 64, Nat.mod_lt _ (by norm_num)⟩ : Fin 64) hh (by show k.val % 64 = (k.val - 128) % 64; omega) hhh]
    by_cases hc : (k.val - 128) / 64 = h.val / 128
    · rw [if_pos hc, if_pos (by omega)]
      exact slice2_axis0_apply o₂ W sl₂ _ _ kk (hk2 hge)
    · rw [if_neg hc, if_neg (by omega)]

/-! ## The four packed weights at an index -/

theorem v33_apply (c : Dev nD) (q : Fin 32) (j : Fin 128) :
    (V m c main_v33 : S32x128.Idx → EReal) (ix2 q j)
      = (if q.val / 16 = j.val / 64 then
          (m ((c : Thread nD τ).loc main_arg3) : S16x64.Idx → EReal)
            (ix2 (⟨q.val % 16, by omega⟩ : Fin 16) (⟨j.val % 64, by omega⟩ : Fin 64))
        else 0 : EReal) := by
  refine ((congrFun (hpB_v33_term m c) (ix2 q j)).trans (truncf_apply _ _ _)).trans ?_
  exact hpB_double (r := 16) (c := 64) rfl rfl _ _ (fun y => hpB_zero _ y) _ _ q j _ _ rfl rfl

theorem v26_apply (c : Dev nD) (k h : Fin 256) :
    (V m c main_v26 : S256x256.Idx → EReal) (ix2 k h)
      = (if (k.val / 64) % 2 = h.val / 128 then
          (m ((c : Thread nD τ).loc main_arg5) : S256x128.Idx → EReal)
            (ix2 (⟨(k.val / 128) * 64 + k.val % 64, by omega⟩ : Fin 256) (⟨h.val % 128, by omega⟩ : Fin 128))
        else 0 : EReal) := by
  refine ((congrFun (hpB_v26_term m c) (ix2 k h)).trans (truncf_apply _ _ _)).trans ?_
  exact hpB_stack _ 0 64 _ _ _ (fun y => hpB_zero _ y) _ _ _ k h _ _
    (fun hk => by show k.val / 128 * 64 + k.val % 64 = 0 + k.val % 64; omega)
    (fun hk => by have := k.isLt; show k.val / 128 * 64 + k.val % 64 = 64 + k.val % 64; omega) rfl

theorem v28_apply (c : Dev nD) (k h : Fin 256) :
    (V m c main_v28 : S256x256.Idx → EReal) (ix2 k h)
      = (if (k.val / 64) % 2 = h.val / 128 then
          (m ((c : Thread nD τ).loc main_arg5) : S256x128.Idx → EReal)
            (ix2 (⟨128 + (k.val / 128) * 64 + k.val % 64, by omega⟩ : Fin 256) (⟨h.val % 128, by omega⟩ : Fin 128))
        else 0 : EReal) := by
  refine ((congrFun (hpB_v28_term m c) (ix2 k h)).trans (truncf_apply _ _ _)).trans ?_
  exact hpB_stack _ 128 192 _ _ _ (fun y => hpB_zero _ y) _ _ _ k h _ _
    (fun hk => by show 128 + k.val / 128 * 64 + k.val % 64 = 128 + k.val % 64; omega)
    (fun hk => by have := k.isLt; show 128 + k.val / 128 * 64 + k.val % 64 = 192 + k.val % 64; omega) rfl

theorem v38_apply (c : Dev nD) (h : Fin 256) (j : Fin 128) :
    (V m c main_v38 : S256x128.Idx → EReal) (ix2 h j)
      = (if h.val / 128 = j.val / 64 then
          (m ((c : Thread nD τ).loc main_arg7) : S128x64.Idx → EReal)
            (ix2 (⟨h.val % 128, by omega⟩ : Fin 128) (⟨j.val % 64, by omega⟩ : Fin 64))
        else 0 : EReal) := by
  refine ((congrFun (hpB_v38_term m c) (ix2 h j)).trans (truncf_apply _ _ _)).trans ?_
  exact hpB_double (r := 128) (c := 64) rfl rfl _ _ (fun y => hpB_zero _ y) _ _ h j _ _ rfl rfl

end Cert.KernelIdeal.HostPre

end
-- ==== Proof.Packed.lean ====
/-
  One packed row of the packed program is two edges of the plain network.

  Packed row `i` holds edges `2i` and `2i+1` side by side; lane `j` of its output belongs to edge
  `2i + j / 64` and output component `j % 64`. Every packed weight is block diagonal, so each sum over the
  packed width splits into the sum over the half that belongs to the lane's edge — which is the plain
  network's sum — and a sum of products with zero, which vanishes (on the extended reals `x · 0 = 0` for every
  `x`, infinities included, and addition is a commutative monoid, so no finiteness is used). The selector's
  product with the doubled table of graph rows has exactly one nonzero lane: the one of the edge's own label.
-/
import proofs.«416944_j49830210568747_3_alg».proof.Proof.Spec
import Mathlib.Algebra.BigOperators.Fin
import Mathlib.Data.EReal.Basic

noncomputable section

namespace Cert.EdgeMlp

open Idealize.ShloMosaic Idealize.ShloMosaic.ValueIdx

/-! ## Indices and finite sums -/

/-- Two indices of a matrix are equal when their coordinates have equal values. -/
theorem ix2_congr {n m : ℕ} {a a' : Fin n} {b b' : Fin m} (ha : a.val = a'.val) (hb : b.val = b'.val) :
    ix2 a b = ix2 a' b' := by
  cases Fin.ext ha; cases Fin.ext hb; rfl

section Sums
variable {M : Type*} [AddCommMonoid M]

/-- A sum over 256 terms is the sum of its two halves. -/
theorem sum_fin256 (f : Fin 256 → M) :
    ∑ k, f k = (∑ r : Fin 128, f ⟨r.val, by omega⟩) + (∑ r : Fin 128, f ⟨128 + r.val, by omega⟩) :=
  Fin.sum_univ_add (a := 128) (b := 128) f

/-- A sum over 128 terms is the sum of its two halves. -/
theorem sum_fin128 (f : Fin 128 → M) :
    ∑ k, f k = (∑ r : Fin 64, f ⟨r.val, by omega⟩) + (∑ r : Fin 64, f ⟨64 + r.val, by omega⟩) :=
  Fin.sum_univ_add (a := 64) (b := 64) f

/-- A sum over 256 terms is the sum of its four quarters, grouped in pairs. -/
theorem sum_fin256_quarters (f : Fin 256 → M) :
    ∑ k, f k = ((∑ r : Fin 64, f ⟨r.val, by omega⟩) + (∑ r : Fin 64, f ⟨64 + r.val, by omega⟩))
      + ((∑ r : Fin 64, f ⟨128 + r.val, by omega⟩) + (∑ r : Fin 64, f ⟨192 + r.val, by omega⟩)) := by
  rw [sum_fin256, sum_fin128 (fun r => f ⟨r.val, by omega⟩), sum_fin128 (fun r => f ⟨128 + r.val, by omega⟩)]
  refine congrArg₂ (· + ·) rfl (congrArg₂ (· + ·) rfl ?_)
  exact Finset.sum_congr rfl (fun r _ => congrArg f (Fin.ext (by dsimp only <;> omega)))

end Sums

/-- Words of 32 bits made from numbers below 16 are equal only when the numbers are. -/
theorem ofNat32_inj {a b : ℕ} (ha : a < 16) (hb : b < 16) (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-! ## The selector -/

/-- The selector row times the doubled table of graph rows is the graph row of the lane's own edge: exactly one
    of the 32 lanes has both a nonzero selector entry and a nonzero table entry. -/
theorem uexpSel_onehot (u : A2 16 64) (g : Fin 1000000 → Fin 16) (i : Fin 500000)
    (bp : Fin 2 → BitVec 32) (U : A2 32 128)
    (hbp : ∀ p : Fin 2, bp p = BitVec.ofNat 32 (g (⟨2 * i.val + p.val, by omega⟩ : Fin 1000000)).val)
    (hU : ∀ (q : Fin 32) (j : Fin 128), U (ix2 q j)
      = if q.val / 16 = j.val / 64 then u (ix2 (⟨q.val % 16, by omega⟩ : Fin 16) (⟨j.val % 64, by omega⟩ : Fin 64)) else 0)
    (j : Fin 128) :
    uexpSel (onehot bp) U j
      = u (ix2 (g (⟨2 * i.val + j.val / 64, by omega⟩ : Fin 1000000)) (⟨j.val % 64, by omega⟩ : Fin 64)) := by
  have hg := (g (⟨2 * i.val + j.val / 64, by omega⟩ : Fin 1000000)).isLt
  -- the label of a lane in the half of lane `j`
  have hlab : ∀ q : Fin 32, q.val / 16 = j.val / 64 →
      bp ⟨q.val / 16, by omega⟩ = BitVec.ofNat 32 (g (⟨2 * i.val + j.val / 64, by omega⟩ : Fin 1000000)).val := by
    intro q hq
    exact (hbp ⟨q.val / 16, by omega⟩).trans
      (congrArg (fun e : Fin 1000000 => BitVec.ofNat 32 (g e).val) (Fin.ext (by dsimp only <;> omega)))
  unfold uexpSel
  rw [Finset.sum_eq_single
    (⟨16 * (j.val / 64) + (g (⟨2 * i.val + j.val / 64, by omega⟩ : Fin 1000000)).val, by omega⟩ : Fin 32)]
  · have h1 : onehot bp (⟨16 * (j.val / 64) + (g (⟨2 * i.val + j.val / 64, by omega⟩ : Fin 1000000)).val, by omega⟩ : Fin 32)
        = 1 := by
      unfold onehot
      rw [hlab _ (by dsimp only <;> omega)]
      exact if_pos (congrArg (BitVec.ofNat 32) (by dsimp only <;> omega))
    rw [h1, one_mul, hU, if_pos (by dsimp only <;> omega)]
    exact congrArg u (ix2_congr (by dsimp only <;> omega) rfl)
  · intro q _ hq
    by_cases hh : q.val / 16 = j.val / 64
    · have h0 : onehot bp q = 0 := by
        unfold onehot
        rw [hlab q hh]
        refine if_neg (fun he => hq (Fin.ext ?_))
        have := ofNat32_inj hg (by omega) he
        dsimp only <;> omega
      rw [h0, zero_mul]
    · rw [hU, if_neg hh, mul_zero]
  · intro hq; exact absurd (Finset.mem_univ _) hq

/-! ## Two rows side by side -/

theorem cat2_lt (a b : Fin 128 → EReal) (k : Fin 256) (hk : k.val < 128) : cat2 a b k = a ⟨k.val, hk⟩ :=
  dif_pos hk

theorem cat2_ge (a b : Fin 128 → EReal) (k : Fin 256) (hk : ¬ k.val < 128) :
    cat2 a b k = b ⟨k.val - 128, by omega⟩ :=
  dif_neg hk

/-! ## Sums against block-diagonal weights -/

section BlockSums
variable {M : Type*} [AddCommMonoid M]

/-- A sum over 256 terms that vanish off the chunks of 64 of parity `p` is the sum over those two chunks. -/
theorem sum_fin256_parity (f : Fin 256 → M) (p : ℕ) (hp : p < 2)
    (hz : ∀ k : Fin 256, (k.val / 64) % 2 ≠ p → f k = 0) :
    ∑ k, f k = (∑ r : Fin 64, f ⟨64 * p + r.val, by omega⟩)
      + (∑ r : Fin 64, f ⟨128 + 64 * p + r.val, by omega⟩) := by
  rw [sum_fin256_quarters]
  obtain rfl | rfl : p = 0 ∨ p = 1 := by omega
  · have e1 : (∑ r : Fin 64, f ⟨64 + r.val, by omega⟩) = 0 :=
      Finset.sum_eq_zero (fun r _ => hz _ (by dsimp only <;> omega))
    have e3 : (∑ r : Fin 64, f ⟨192 + r.val, by omega⟩) = 0 :=
      Finset.sum_eq_zero (fun r _ => hz _ (by dsimp only <;> omega))
    calc _ = (∑ r : Fin 64, f ⟨r.val, by omega⟩) + (∑ r : Fin 64, f ⟨128 + r.val, by omega⟩) := by
          rw [e1, e3, add_zero, add_zero]
      _ = _ := congrArg₂ (· + ·)
          (Finset.sum_congr rfl (fun r _ => congrArg f (Fin.ext (by dsimp only <;> omega))))
          (Finset.sum_congr rfl (fun r _ => congrArg f (Fin.ext (by dsimp only <;> omega))))
  · have e0 : (∑ r : Fin 64, f ⟨r.val, by omega⟩) = 0 :=
      Finset.sum_eq_zero (fun r _ => hz _ (by dsimp only <;> omega))
    have e2 : (∑ r : Fin 64, f ⟨128 + r.val, by omega⟩) = 0 :=
      Finset.sum_eq_zero (fun r _ => hz _ (by dsimp only <;> omega))
    calc _ = (∑ r : Fin 64, f ⟨64 + r.val, by omega⟩) + (∑ r : Fin 64, f ⟨192 + r.val, by omega⟩) := by
          rw [e0, e2, zero_add, zero_add]
      _ = _ := congrArg₂ (· + ·)
          (Finset.sum_congr rfl (fun r _ => congrArg f (Fin.ext (by dsimp only <;> omega))))
          (Finset.sum_congr rfl (fun r _ => congrArg f (Fin.ext (by dsimp only <;> omega))))

/-- A sum over 256 terms that vanish off the half `p` is the sum over that half. -/
theorem sum_fin256_half (f : Fin 256 → M) (p : ℕ) (hp : p < 2)
    (hz : ∀ k : Fin 256, k.val / 128 ≠ p → f k = 0) :
    ∑ k, f k = ∑ r : Fin 128, f ⟨128 * p + r.val, by omega⟩ := by
  rw [sum_fin256]
  obtain rfl | rfl : p = 0 ∨ p = 1 := by omega
  · have e1 : (∑ r : Fin 128, f ⟨128 + r.val, by omega⟩) = 0 :=
      Finset.sum_eq_zero (fun r _ => hz _ (by dsimp only <;> omega))
    calc _ = ∑ r : Fin 128, f ⟨r.val, by omega⟩ := by rw [e1, add_zero]
      _ = _ := Finset.sum_congr rfl (fun r _ => congrArg f (Fin.ext (by dsimp only <;> omega)))
  · have e0 : (∑ r : Fin 128, f ⟨r.val, by omega⟩) = 0 :=
      Finset.sum_eq_zero (fun r _ => hz _ (by dsimp only <;> omega))
    calc _ = ∑ r : Fin 128, f ⟨128 + r.val, by omega⟩ := by rw [e0, zero_add]
      _ = _ := Finset.sum_congr rfl (fun r _ => congrArg f (Fin.ext (by dsimp only <;> omega)))

end BlockSums

/-! ## The first layer -/

/-- The source and destination rows of a packed row against their block-diagonal weight, at hidden lane `h`:
    the two chunks of the lane's edge `2i + h / 128`. -/
theorem layer1_sd (src dest : A2 1000000 64) (W1 : A2 256 128) (i : Fin 500000)
    (a0 a1 : Fin 128 → EReal) (Wsd : A2 256 256)
    (ha0 : ∀ k : Fin 128, a0 k = src (ix2 (⟨2 * i.val + k.val / 64, by omega⟩ : Fin 1000000) (⟨k.val % 64, by omega⟩ : Fin 64)))
    (ha1 : ∀ k : Fin 128, a1 k = dest (ix2 (⟨2 * i.val + k.val / 64, by omega⟩ : Fin 1000000) (⟨k.val % 64, by omega⟩ : Fin 64)))
    (hWsd : ∀ k h : Fin 256, Wsd (ix2 k h)
      = if (k.val / 64) % 2 = h.val / 128 then
          W1 (ix2 (⟨(k.val / 128) * 64 + k.val % 64, by omega⟩ : Fin 256) (⟨h.val % 128, by omega⟩ : Fin 128)) else 0)
    (h : Fin 256) :
    ∑ k : Fin 256, cat2 a0 a1 k * Wsd (ix2 k h)
      = (∑ k : Fin 64, src (ix2 (⟨2 * i.val + h.val / 128, by omega⟩ : Fin 1000000) k)
            * W1 (ix2 (⟨k.val, by omega⟩ : Fin 256) (⟨h.val % 128, by omega⟩ : Fin 128)))
        + (∑ k : Fin 64, dest (ix2 (⟨2 * i.val + h.val / 128, by omega⟩ : Fin 1000000) k)
            * W1 (ix2 (⟨64 + k.val, by omega⟩ : Fin 256) (⟨h.val % 128, by omega⟩ : Fin 128))) := by
  refine (sum_fin256_parity _ (h.val / 128) (by omega)
    (fun k hk => by rw [hWsd, if_neg hk, mul_zero])).trans ?_
  refine congrArg₂ (· + ·) (Finset.sum_congr rfl (fun r _ => ?_)) (Finset.sum_congr rfl (fun r _ => ?_))
  · rw [cat2_lt _ _ _ (by dsimp only <;> omega), ha0, hWsd, if_pos (by dsimp only <;> omega)]
    exact congrArg₂ (· * ·)
      (congrArg src (ix2_congr (by dsimp only <;> omega) (by dsimp only <;> omega)))
      (congrArg W1 (ix2_congr (by dsimp only <;> omega) (by dsimp only <;> omega)))
  · rw [cat2_ge _ _ _ (by dsimp only <;> omega), ha1, hWsd, if_pos (by dsimp only <;> omega)]
    exact congrArg₂ (· * ·)
      (congrArg dest (ix2_congr (by dsimp only <;> omega) (by dsimp only <;> omega)))
      (congrArg W1 (ix2_congr (by dsimp only <;> omega) (by dsimp only <;> omega)))

/-- The edge-attribute row and the gathered graph rows of a packed row against their block-diagonal weight, at
    hidden lane `h`: the two chunks of the lane's edge `2i + h / 128`. -/
theorem layer1_eu (edge : A2 1000000 64) (u : A2 16 64) (g : Fin 1000000 → Fin 16) (W1 : A2 256 128)
    (i : Fin 500000) (a2 : Fin 128 → EReal) (bp : Fin 2 → BitVec 32) (U : A2 32 128) (Weu : A2 256 256)
    (ha2 : ∀ k : Fin 128, a2 k = edge (ix2 (⟨2 * i.val + k.val / 64, by omega⟩ : Fin 1000000) (⟨k.val % 64, by omega⟩ : Fin 64)))
    (hbp : ∀ p : Fin 2, bp p = BitVec.ofNat 32 (g (⟨2 * i.val + p.val, by omega⟩ : Fin 1000000)).val)
    (hU : ∀ (q : Fin 32) (j : Fin 128), U (ix2 q j)
      = if q.val / 16 = j.val / 64 then u (ix2 (⟨q.val % 16, by omega⟩ : Fin 16) (⟨j.val % 64, by omega⟩ : Fin 64)) else 0)
    (hWeu : ∀ k h : Fin 256, Weu (ix2 k h)
      = if (k.val / 64) % 2 = h.val / 128 then
          W1 (ix2 (⟨128 + (k.val / 128) * 64 + k.val % 64, by omega⟩ : Fin 256) (⟨h.val % 128, by omega⟩ : Fin 128)) else 0)
    (h : Fin 256) :
    ∑ k : Fin 256, cat2 a2 (uexpSel (onehot bp) U) k * Weu (ix2 k h)
      = (∑ k : Fin 64, edge (ix2 (⟨2 * i.val + h.val / 128, by omega⟩ : Fin 1000000) k)
            * W1 (ix2 (⟨128 + k.val, by omega⟩ : Fin 256) (⟨h.val % 128, by omega⟩ : Fin 128)))
        + (∑ k : Fin 64, u (ix2 (g (⟨2 * i.val + h.val / 128, by omega⟩ : Fin 1000000)) k)
            * W1 (ix2 (⟨192 + k.val, by omega⟩ : Fin 256) (⟨h.val % 128, by omega⟩ : Fin 128))) := by
  refine (sum_fin256_parity _ (h.val / 128) (by omega)
    (fun k hk => by rw [hWeu, if_neg hk, mul_zero])).trans ?_
  refine congrArg₂ (· + ·) (Finset.sum_congr rfl (fun r _ => ?_)) (Finset.sum_congr rfl (fun r _ => ?_))
  · rw [cat2_lt _ _ _ (by dsimp only <;> omega), ha2, hWeu, if_pos (by dsimp only <;> omega)]
    exact congrArg₂ (· * ·)
      (congrArg edge (ix2_congr (by dsimp only <;> omega) (by dsimp only <;> omega)))
      (congrArg W1 (ix2_congr (by dsimp only <;> omega) (by dsimp only <;> omega)))
  · rw [cat2_ge _ _ _ (by dsimp only <;> omega), uexpSel_onehot u g i bp U hbp hU, hWeu,
      if_pos (by dsimp only <;> omega)]
    have he : (⟨2 * i.val + (⟨(⟨128 + 64 * (h.val / 128) + r.val, by omega⟩ : Fin 256).val - 128, by dsimp only <;> omega⟩ : Fin 128).val / 64,
        by dsimp only <;> omega⟩ : Fin 1000000) = ⟨2 * i.val + h.val / 128, by omega⟩ := Fin.ext (by dsimp only <;> omega)
    exact congrArg₂ (· * ·)
      (congrArg u (by rw [he]; exact ix2_congr rfl (by dsimp only <;> omega)))
      (congrArg W1 (ix2_congr (by dsimp only <;> omega) (by dsimp only <;> omega)))

/-! ## The packed row -/

/-- The hidden activation depends on its edge and unit through their values. -/
theorem hid_congr (src dest edge : A2 1000000 64) (u : A2 16 64) (g : Fin 1000000 → Fin 16)
    (W1 : A2 256 128) (b1 : A1 128) {e e' : Fin 1000000} {h h' : Fin 128}
    (he : e.val = e'.val) (hh : h.val = h'.val) :
    hid src dest edge u g W1 b1 e h = hid src dest edge u g W1 b1 e' h' := by
  cases Fin.ext he; cases Fin.ext hh; rfl

theorem payRow_eq_mlp
    (src dest edge : A2 1000000 64) (u : A2 16 64) (g : Fin 1000000 → Fin 16)
    (W1 : A2 256 128) (b1 : A1 128) (W2 : A2 128 64) (b2 : A1 64)
    (i : Fin 500000)
    (a0 a1 a2 : Fin 128 → EReal) (bp : Fin 2 → BitVec 32) (U : A2 32 128) (Wsd Weu : A2 256 256)
    (b1p : A2 1 256) (W2p : A2 256 128) (b2p : A2 1 128)
    (ha0 : ∀ k : Fin 128, a0 k = src (ix2 (⟨2 * i.val + k.val / 64, by omega⟩ : Fin 1000000) (⟨k.val % 64, by omega⟩ : Fin 64)))
    (ha1 : ∀ k : Fin 128, a1 k = dest (ix2 (⟨2 * i.val + k.val / 64, by omega⟩ : Fin 1000000) (⟨k.val % 64, by omega⟩ : Fin 64)))
    (ha2 : ∀ k : Fin 128, a2 k = edge (ix2 (⟨2 * i.val + k.val / 64, by omega⟩ : Fin 1000000) (⟨k.val % 64, by omega⟩ : Fin 64)))
    (hbp : ∀ p : Fin 2, bp p = BitVec.ofNat 32 (g (⟨2 * i.val + p.val, by omega⟩ : Fin 1000000)).val)
    (hU : ∀ (q : Fin 32) (j : Fin 128), U (ix2 q j)
      = if q.val / 16 = j.val / 64 then u (ix2 (⟨q.val % 16, by omega⟩ : Fin 16) (⟨j.val % 64, by omega⟩ : Fin 64)) else 0)
    (hWsd : ∀ k h : Fin 256, Wsd (ix2 k h)
      = if (k.val / 64) % 2 = h.val / 128 then
          W1 (ix2 (⟨(k.val / 128) * 64 + k.val % 64, by omega⟩ : Fin 256) (⟨h.val % 128, by omega⟩ : Fin 128)) else 0)
    (hWeu : ∀ k h : Fin 256, Weu (ix2 k h)
      = if (k.val / 64) % 2 = h.val / 128 then
          W1 (ix2 (⟨128 + (k.val / 128) * 64 + k.val % 64, by omega⟩ : Fin 256) (⟨h.val % 128, by omega⟩ : Fin 128)) else 0)
    (hb1p : ∀ h : Fin 256, b1p (ix2 (0 : Fin 1) h) = b1 (ix1 (⟨h.val % 128, by omega⟩ : Fin 128)))
    (hW2p : ∀ (h : Fin 256) (j : Fin 128), W2p (ix2 h j)
      = if h.val / 128 = j.val / 64 then W2 (ix2 (⟨h.val % 128, by omega⟩ : Fin 128) (⟨j.val % 64, by omega⟩ : Fin 64)) else 0)
    (hb2p : ∀ j : Fin 128, b2p (ix2 (0 : Fin 1) j) = b2 (ix1 (⟨j.val % 64, by omega⟩ : Fin 64)))
    (j : Fin 128) :
    payRow a0 a1 a2 bp U Wsd Weu b1p W2p b2p j
      = mlp src dest edge u g W1 b1 W2 b2 (⟨2 * i.val + j.val / 64, by omega⟩ : Fin 1000000) (⟨j.val % 64, by omega⟩ : Fin 64) := by
  -- hidden lane `h` of the packed row is hidden unit `h % 128` of edge `2i + h / 128`
  have hhid : ∀ h : Fin 256,
      max (((∑ k : Fin 256, cat2 a0 a1 k * Wsd (ix2 k h))
            + (∑ k : Fin 256, cat2 a2 (uexpSel (onehot bp) U) k * Weu (ix2 k h)))
          + b1p (ix2 (0 : Fin 1) h)) 0
        = hid src dest edge u g W1 b1 (⟨2 * i.val + h.val / 128, by omega⟩ : Fin 1000000)
            (⟨h.val % 128, by omega⟩ : Fin 128) := by
    intro h
    rw [layer1_sd src dest W1 i a0 a1 Wsd ha0 ha1 hWsd h,
      layer1_eu edge u g W1 i a2 bp U Weu ha2 hbp hU hWeu h, hb1p h]
    rfl
  unfold payRow payRowSel mlp
  refine congrArg₂ (· + ·) ?_ (hb2p j)
  refine (Finset.sum_congr rfl (fun h _ => congrArg (· * W2p (ix2 h j)) (hhid h))).trans ?_
  refine (sum_fin256_half _ (j.val / 64) (by omega)
    (fun h hh => by rw [hW2p, if_neg hh, mul_zero])).trans ?_
  refine Finset.sum_congr rfl (fun r _ => ?_)
  rw [hW2p, if_pos (by dsimp only <;> omega)]
  exact congrArg₂ (· * ·)
    (hid_congr src dest edge u g W1 b1 (by dsimp only <;> omega) (by dsimp only <;> omega))
    (congrArg W2 (ix2_congr (by dsimp only <;> omega) (by dsimp only <;> omega)))

end Cert.EdgeMlp

end
-- ==== Proof.KernelValue.lean ====
/-
  The packed program's result is the plain network.

  Entry `(e, o)` of the result is lane `64 (e % 2) + o` of packed row `e / 2` of the region's result, which is
  the packed row function of that row of the packed inputs; the host lines before the region make the packed
  inputs the re-layings and block-diagonal doublings Packed.lean assumes, so that lane is the plain network's
  output for edge `2 (e / 2) + e % 2 = e`, component `o`.
-/
import proofs.«416944_j49830210568747_3_alg».proof.Proof.KernelRun
import proofs.«416944_j49830210568747_3_alg».proof.Proof.HostPreA
import proofs.«416944_j49830210568747_3_alg».proof.Proof.HostPreB
import proofs.«416944_j49830210568747_3_alg».proof.Proof.Packed
import Idealize.ShloMosaic.Lib.Pipeline.Value

noncomputable section

namespace Cert.KernelIdeal.Run

open Cert.KernelIdeal Cert.KernelIdeal.Gen Idealize.ShloMosaic Idealize.ShloMosaic.TcCoe Idealize.SL.Sem
open Idealize.ShloMosaic.ValueIdx Cert.EdgeMlp

variable (m : (ℓ : Loc nD τ sig) → Buf (Elt Ideal) ℓ)

theorem result_eq (c : Dev nD) (g : Fin 1000000 → Fin 16)
    (hb : ∀ e : Fin 1000000, (m ((c : Thread nD τ).loc main_arg4) : S1000000.Idx → BitVec 32) (ix1 e) = BitVec.ofNat 32 (g e).val) :
    result m c = mlpArr (m ((c : Thread nD τ).loc main_arg0)) (m ((c : Thread nD τ).loc main_arg1)) (m ((c : Thread nD τ).loc main_arg2))
      (m ((c : Thread nD τ).loc main_arg3)) g (m ((c : Thread nD τ).loc main_arg5)) (m ((c : Thread nD τ).loc main_arg6))
      (m ((c : Thread nD τ).loc main_arg7)) (m ((c : Thread nD τ).loc main_arg8)) := by
  funext I
  obtain ⟨e, o, rfl⟩ : ∃ (e : Fin 1000000) (o : Fin 64), I = ix2 e o := ⟨⟨(I 0).val, idx2_lt0 I⟩, ⟨(I 1).val, idx2_lt1 I⟩, eq_ix2 I⟩
  rw [mlpArr_ix2]
  unfold result
  have he : e.val < 1000000 := e.isLt
  have ho : o.val < 64 := o.isLt
  refine (shapeCast_apply (Blocks.G10 m c) shapeCasts_S500000x128_S1000000x64 (ix2 e o)
    (ix2 (⟨e.val / 2, by omega⟩ : Fin 500000) (⟨64 * (e.val % 2) + o.val, by omega⟩ : Fin 128)) ?_).trans ?_
  · rw [Shape.rowMajor_val_two, Shape.rowMajor_val_two]
    show (e.val / 2) * 128 + (64 * (e.val % 2) + o.val) = e.val * 64 + o.val
    omega
  · unfold Blocks.G10
    refine (payRow_eq_mlp (m ((c : Thread nD τ).loc main_arg0)) (m ((c : Thread nD τ).loc main_arg1)) (m ((c : Thread nD τ).loc main_arg2))
      (m ((c : Thread nD τ).loc main_arg3)) g (m ((c : Thread nD τ).loc main_arg5)) (m ((c : Thread nD τ).loc main_arg6))
      (m ((c : Thread nD τ).loc main_arg7)) (m ((c : Thread nD τ).loc main_arg8))
      (⟨e.val / 2, by omega⟩ : Fin 500000) _ _ _ _ _ _ _ _ _ _
      (fun k => HostPre.v0_apply m c _ k) (fun k => HostPre.v1_apply m c _ k) (fun k => HostPre.v2_apply m c _ k)
      (fun p => HostPre.v4_apply m c g hb _ p)
      (fun q j => HostPre.v33_apply m c q j) (fun k h => HostPre.v26_apply m c k h) (fun k h => HostPre.v28_apply m c k h)
      (fun h => HostPre.v40_apply m c h) (fun h j => HostPre.v38_apply m c h j) (fun j => HostPre.v42_apply m c j)
      (⟨64 * (e.val % 2) + o.val, by omega⟩ : Fin 128)).trans ?_
    congr 1
    · exact Fin.ext (by show 2 * (e.val / 2) + (64 * (e.val % 2) + o.val) / 64 = e.val; omega)
    · exact Fin.ext (by show (64 * (e.val % 2) + o.val) % 64 = o.val; omega)

end Cert.KernelIdeal.Run

end
-- ==== Proof.RefValue.lean ====
/-
  The reference program's result, stage by stage at an index, is the plain network of Spec.lean.

  The reference first normalises the labels as jnp's indexing does (a negative label has 16 added) and
  gathers row `label` of `u`, the start index clamped into `[0, 15]`; on labels already in `[0, 15]` both
  steps change nothing, so edge `e` gets row `g e`. It lays the four feature rows side by side, so the first
  matrix product's sum over 256 inputs is the four chunk sums of 64; then bias, rectifier, second product,
  bias, as in `mlp`.
-/
import proofs.«416944_j49830210568747_3_alg».proof.Proof.Gen.ReferenceIdeal.Read
import proofs.«416944_j49830210568747_3_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Idealize.ShloMosaic
open Idealize.ShloMosaic.ValueIdx Cert.EdgeMlp

/-! ## A sum over 256 as four sums over 64 -/

/-- A sum over 128 indices is the sum over the first 64 plus the sum over the last 64. -/
theorem sum_fin128_halves {M : Type*} [AddCommMonoid M] (f : Fin 128 → M) :
    ∑ k : Fin 128, f k
      = (∑ r : Fin 64, f ⟨r.val, by omega⟩) + (∑ r : Fin 64, f ⟨64 + r.val, by omega⟩) :=
  Fin.sum_univ_add (a := 64) (b := 64) f

/-- A sum over 256 indices is the sum over the first 128 plus the sum over the last 128. -/
theorem sum_fin256_halves {M : Type*} [AddCommMonoid M] (f : Fin 256 → M) :
    ∑ k : Fin 256, f k
      = (∑ r : Fin 128, f ⟨r.val, by omega⟩) + (∑ r : Fin 128, f ⟨128 + r.val, by omega⟩) :=
  Fin.sum_univ_add (a := 128) (b := 128) f

/-- A sum over 256 indices is its four chunk sums of 64, the first two and the last two grouped. -/
theorem sum_fin256_chunks {M : Type*} [AddCommMonoid M] (f : Fin 256 → M) :
    ∑ k : Fin 256, f k
      = ((∑ r : Fin 64, f ⟨r.val, by omega⟩) + (∑ r : Fin 64, f ⟨64 + r.val, by omega⟩))
        + ((∑ r : Fin 64, f ⟨128 + r.val, by omega⟩) + (∑ r : Fin 64, f ⟨192 + r.val, by omega⟩)) := by
  rw [sum_fin256_halves f, sum_fin128_halves (fun r => f ⟨r.val, by omega⟩),
    sum_fin128_halves (fun r => f ⟨128 + r.val, by omega⟩)]
  refine congrArg₂ (· + ·) rfl (congrArg₂ (· + ·) rfl ?_)
  refine Finset.sum_congr rfl fun r _ => congrArg f (Fin.ext ?_)
  show 128 + (64 + r.val) = 192 + r.val
  omega

/-! ## The label arithmetic on labels below 16 -/

/-- Adding 16 to a negative label changes nothing on a label in `[0, 15]`. -/
theorem normalise_label (n : Fin 16) :
    Scalar.select (IntOp.cmpi .slt (BitVec.ofNat 32 n.val) 0#32) (IntOp.addi (BitVec.ofNat 32 n.val) 16#32)
      (BitVec.ofNat 32 n.val) = BitVec.ofNat 32 n.val := by
  revert n; decide

/-- Reading a label in `[0, 15]` signed and clamping it into `[0, 15]` changes nothing. -/
theorem clamp_label (n : Fin 16) : min (BitVec.ofNat 32 n.val).toInt.toNat 15 = n.val := by
  revert n; decide

/-! ## The gather of one row of a 16-row table per edge -/

section Gather
variable {α : Type} {w : Nat}

/-- The reference's gather read at `(e, r)`: the table at row "start index `idx[e, 0]` read signed and clamped into
    `[0, 15]`", column `r`. -/
theorem gather_row_apply (x : S16x64.Idx → α) (idx : IVec S1000000x1 w) (e : Fin 1000000) (r : Fin 64) :
    Host.gather gather_S16x64_S1000000x1_S1000000x64_1_0_n_n_0_1_164 x idx (ix2 e r)
      = x (ix2 (⟨min (idx (ix2 e (0 : Fin 1))).toInt.toNat 15, by omega⟩ : Fin 16) r) := by
  unfold Host.gather
  congr 1
  funext a
  refine Fin.ext ?_
  match a with
  | ⟨0, _⟩ =>
    show gather_S16x64_S1000000x1_S1000000x64_1_0_n_n_0_1_164.start (ix2 e r) idx 0
      + gather_S16x64_S1000000x1_S1000000x64_1_0_n_n_0_1_164.batchCoord (ix2 e r) 0
      + gather_S16x64_S1000000x1_S1000000x64_1_0_n_n_0_1_164.offCoord (ix2 e r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x64_S1000000x1_S1000000x64_1_0_n_n_0_1_164.startIndexMap from
      List.mem_singleton.mpr rfl)]
    have hsi : gather_S16x64_S1000000x1_S1000000x64_1_0_n_n_0_1_164.siIdx (ix2 e r)
        ⟨List.idxOf (0 : Fin 2) gather_S16x64_S1000000x1_S1000000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S16x64_S1000000x1_S1000000x64_1_0_n_n_0_1_164.start (ix2 e r) idx 1
      + gather_S16x64_S1000000x1_S1000000x64_1_0_n_n_0_1_164.batchCoord (ix2 e r) 1
      + gather_S16x64_S1000000x1_S1000000x64_1_0_n_n_0_1_164.offCoord (ix2 e r) 1 = r.val
    rw [GatherDims.batchCoord_eq_zero _ _ _ List.not_mem_nil]
    have hs : gather_S16x64_S1000000x1_S1000000x64_1_0_n_n_0_1_164.start (ix2 e r) idx 1 = 0 := by
      unfold GatherDims.start
      rw [dif_neg (show ¬ (1 : Fin 2) ∈ gather_S16x64_S1000000x1_S1000000x64_1_0_n_n_0_1_164.startIndexMap by decide)]
    have ho : gather_S16x64_S1000000x1_S1000000x64_1_0_n_n_0_1_164.offCoord (ix2 e r) 1 = r.val := by
      unfold GatherDims.offCoord
      rw [dif_pos (show (1 : Fin 2) ∈ gather_S16x64_S1000000x1_S1000000x64_1_0_n_n_0_1_164.sKept by decide)]
      rfl
    omega

end Gather

/-! ## The four feature rows side by side -/

section Concat
variable {α : Type} (y0 y1 y2 y3 : S1000000x64.Idx → α) (e : Fin 1000000) (r : Fin 64)

/-- Columns `0 … 63` of the joined row are the first piece. -/
theorem cat4_apply_0 :
    concatenate S1000000x256 1 [⟨S1000000x64, y0⟩, ⟨S1000000x64, y1⟩, ⟨S1000000x64, y2⟩, ⟨S1000000x64, y3⟩]
        concatenates_S1000000x64_S1000000x64_S1000000x64_S1000000x64_S1000000x256_d1
        (ix2 e (⟨r.val, by omega⟩ : Fin 256)) = y0 (ix2 e r) :=
  concatenate_apply_piece (t := S1000000x256) (1 : Fin 2)
    [⟨S1000000x64, y0⟩, ⟨S1000000x64, y1⟩, ⟨S1000000x64, y2⟩, ⟨S1000000x64, y3⟩]
    concatenates_S1000000x64_S1000000x64_S1000000x64_S1000000x64_S1000000x256_d1
    (ix2 e (⟨r.val, by omega⟩ : Fin 256)) 0 (by show 0 < 4; decide) S1000000x64 y0 rfl rfl 0 rfl (ix2 e r)
    (fun b hb => match b, hb with
      | ⟨0, _⟩, _ => rfl
      | ⟨1, _⟩, hb => absurd rfl hb)
    (Nat.zero_add _)

/-- Columns `64 … 127` are the second piece. -/
theorem cat4_apply_1 :
    concatenate S1000000x256 1 [⟨S1000000x64, y0⟩, ⟨S1000000x64, y1⟩, ⟨S1000000x64, y2⟩, ⟨S1000000x64, y3⟩]
        concatenates_S1000000x64_S1000000x64_S1000000x64_S1000000x64_S1000000x256_d1
        (ix2 e (⟨64 + r.val, by omega⟩ : Fin 256)) = y1 (ix2 e r) :=
  concatenate_apply_piece (t := S1000000x256) (1 : Fin 2)
    [⟨S1000000x64, y0⟩, ⟨S1000000x64, y1⟩, ⟨S1000000x64, y2⟩, ⟨S1000000x64, y3⟩]
    concatenates_S1000000x64_S1000000x64_S1000000x64_S1000000x64_S1000000x256_d1
    (ix2 e (⟨64 + r.val, by omega⟩ : Fin 256)) 1 (by show 1 < 4; decide) S1000000x64 y1 rfl rfl 64 rfl (ix2 e r)
    (fun b hb => match b, hb with
      | ⟨0, _⟩, _ => rfl
      | ⟨1, _⟩, hb => absurd rfl hb)
    rfl

/-- Columns `128 … 191` are the third piece. -/
theorem cat4_apply_2 :
    concatenate S1000000x256 1 [⟨S1000000x64, y0⟩, ⟨S1000000x64, y1⟩, ⟨S1000000x64, y2⟩, ⟨S1000000x64, y3⟩]
        concatenates_S1000000x64_S1000000x64_S1000000x64_S1000000x64_S1000000x256_d1
        (ix2 e (⟨128 + r.val, by omega⟩ : Fin 256)) = y2 (ix2 e r) :=
  concatenate_apply_piece (t := S1000000x256) (1 : Fin 2)
    [⟨S1000000x64, y0⟩, ⟨S1000000x64, y1⟩, ⟨S1000000x64, y2⟩, ⟨S1000000x64, y3⟩]
    concatenates_S1000000x64_S1000000x64_S1000000x64_S1000000x64_S1000000x256_d1
    (ix2 e (⟨128 + r.val, by omega⟩ : Fin 256)) 2 (by show 2 < 4; decide) S1000000x64 y2 rfl rfl 128 rfl (ix2 e r)
    (fun b hb => match b, hb with
      | ⟨0, _⟩, _ => rfl
      | ⟨1, _⟩, hb => absurd rfl hb)
    rfl

/-- Columns `192 … 255` are the fourth piece. -/
theorem cat4_apply_3 :
    concatenate S1000000x256 1 [⟨S1000000x64, y0⟩, ⟨S1000000x64, y1⟩, ⟨S1000000x64, y2⟩, ⟨S1000000x64, y3⟩]
        concatenates_S1000000x64_S1000000x64_S1000000x64_S1000000x64_S1000000x256_d1
        (ix2 e (⟨192 + r.val, by omega⟩ : Fin 256)) = y3 (ix2 e r) :=
  concatenate_apply_piece (t := S1000000x256) (1 : Fin 2)
    [⟨S1000000x64, y0⟩, ⟨S1000000x64, y1⟩, ⟨S1000000x64, y2⟩, ⟨S1000000x64, y3⟩]
    concatenates_S1000000x64_S1000000x64_S1000000x64_S1000000x64_S1000000x256_d1
    (ix2 e (⟨192 + r.val, by omega⟩ : Fin 256)) 3 (by show 3 < 4; decide) S1000000x64 y3 rfl rfl 192 rfl (ix2 e r)
    (fun b hb => match b, hb with
      | ⟨0, _⟩, _ => rfl
      | ⟨1, _⟩, hb => absurd rfl hb)
    rfl

end Concat

/-! ## The reference's stages at an index -/

section Stages
variable (x0 x1 x2 : (⟨S1000000x64, .f32⟩ : BufTy).Contents (Elt Ideal)) (x3 : (⟨S16x64, .f32⟩ : BufTy).Contents (Elt Ideal))
  (x4 : (⟨S1000000, .i32⟩ : BufTy).Contents (Elt Ideal)) (x5 : (⟨S256x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))
  (g : Fin 1000000 → Fin 16)
  (hb : ∀ e : Fin 1000000, (x4 : S1000000.Idx → BitVec 32) (ix1 e) = BitVec.ofNat 32 (g e).val)
include hb

/-- The normalised label of edge `e`, as the gather's start index, is the label. -/
theorem label_at (e : Fin 1000000) :
    val_main_v5 (F := Ideal) x4 (ix2 e (0 : Fin 1)) = BitVec.ofNat 32 (g e).val := by
  have hi : idx_main_v5 (ix2 e (0 : Fin 1)) = ix1 e :=
    funext fun a => Fin.ext (by match a with | ⟨0, _⟩ => rfl)
  rw [val_main_v5_apply, hi, val_main_v4_apply, val_main_v1_apply, val_main_v3_apply, val_main_v0_apply,
    val_main_c_apply, val_main_v2_apply, val_main_c_0_apply, hb e]
  exact normalise_label (g e)

/-- The gathered row of edge `e` is row `g e` of the table. -/
theorem gathered_row (e : Fin 1000000) (r : Fin 64) :
    val_main_v6 (F := Ideal) x3 x4 (ix2 e r) = x3 (ix2 (g e) r) := by
  unfold val_main_v6
  refine (gather_row_apply x3 (val_main_v5 (F := Ideal) x4) e r).trans ?_
  refine congrArg (fun n : Fin 16 => x3 (ix2 n r)) (Fin.ext ?_)
  show min (val_main_v5 (F := Ideal) x4 (ix2 e (0 : Fin 1))).toInt.toNat 15 = (g e).val
  rw [label_at x4 g hb e]
  exact clamp_label (g e)

omit hb in
/-- Columns `0 … 63` of edge `e`'s joined row: the source features. -/
theorem row_at_0 (e : Fin 1000000) (r : Fin 64) :
    val_main_v7 (F := Ideal) x0 x1 x2 x3 x4 (ix2 e (⟨r.val, by omega⟩ : Fin 256)) = x0 (ix2 e r) := by
  unfold val_main_v7
  exact cat4_apply_0 _ _ _ _ e r

omit hb in
/-- Columns `64 … 127`: the destination features. -/
theorem row_at_1 (e : Fin 1000000) (r : Fin 64) :
    val_main_v7 (F := Ideal) x0 x1 x2 x3 x4 (ix2 e (⟨64 + r.val, by omega⟩ : Fin 256)) = x1 (ix2 e r) := by
  unfold val_main_v7
  exact cat4_apply_1 _ _ _ _ e r

omit hb in
/-- Columns `128 … 191`: the edge attribute. -/
theorem row_at_2 (e : Fin 1000000) (r : Fin 64) :
    val_main_v7 (F := Ideal) x0 x1 x2 x3 x4 (ix2 e (⟨128 + r.val, by omega⟩ : Fin 256)) = x2 (ix2 e r) := by
  unfold val_main_v7
  exact cat4_apply_2 _ _ _ _ e r

/-- Columns `192 … 255`: row `g e` of the table. -/
theorem row_at_3 (e : Fin 1000000) (r : Fin 64) :
    val_main_v7 (F := Ideal) x0 x1 x2 x3 x4 (ix2 e (⟨192 + r.val, by omega⟩ : Fin 256)) = x3 (ix2 (g e) r) := by
  unfold val_main_v7
  exact (cat4_apply_3 _ _ _ _ e r).trans (gathered_row x3 x4 g hb e r)

/-- The first matrix product at `(e, h)` is the four chunk sums. -/
theorem pre_at (e : Fin 1000000) (h : Fin 128) :
    val_main_v8 (F := Ideal) x0 x1 x2 x3 x4 x5 (ix2 e h) = pre1 x0 x1 x2 x3 g x5 e h := by
  have hl : ∀ k : Fin 256, lidx_main_v8 (ix2 e h) k = ix2 e k := fun k =>
    funext fun a => Fin.ext (by match a with | ⟨0, _⟩ => rfl | ⟨1, _⟩ => rfl)
  have hr : ∀ k : Fin 256, ridx_main_v8 (ix2 e h) k = ix2 k h := fun k =>
    funext fun a => Fin.ext (by match a with | ⟨0, _⟩ => rfl | ⟨1, _⟩ => rfl)
  rw [val_main_v8_apply, sum_fin256_chunks]
  simp only [hl, hr]
  unfold pre1
  refine congrArg₂ (· + ·) (congrArg₂ (· + ·) ?_ ?_) (congrArg₂ (· + ·) ?_ ?_)
  · exact Finset.sum_congr rfl fun r _ => congrArg (· * _) (row_at_0 x0 x1 x2 x3 x4 e r)
  · exact Finset.sum_congr rfl fun r _ => congrArg (· * _) (row_at_1 x0 x1 x2 x3 x4 e r)
  · exact Finset.sum_congr rfl fun r _ => congrArg (· * _) (row_at_2 x0 x1 x2 x3 x4 e r)
  · exact Finset.sum_congr rfl fun r _ => congrArg (· * _) (row_at_3 x0 x1 x2 x3 x4 g hb e r)

/-- The rectified hidden layer at `(e, h)`. -/
theorem hid_at (e : Fin 1000000) (h : Fin 128) :
    val_main_v12 (F := Ideal) x0 x1 x2 x3 x4 x5 x6 (ix2 e h) = hid x0 x1 x2 x3 g x5 x6 e h := by
  have hi : idx_main_v9 (idx_main_v10 (ix2 e h)) = ix1 h :=
    funext fun a => Fin.ext (by match a with | ⟨0, _⟩ => rfl)
  have hz : FloatOps.ofBits (F := Ideal) .f32 0x00000000#32 = (0 : EReal) := Ideal.ofBits_zero_f32
  rw [val_main_v12_apply, val_main_v11_apply, pre_at x0 x1 x2 x3 x4 x5 g hb e h, val_main_v10_apply,
    val_main_v9_apply, hi, val_main_call0_v0_apply, val_main_call0_cst_apply, hz]
  rfl

end Stages

theorem ref_value (x0 x1 x2 : (⟨S1000000x64, .f32⟩ : BufTy).Contents (Elt Ideal)) (x3 : (⟨S16x64, .f32⟩ : BufTy).Contents (Elt Ideal))
    (x4 : (⟨S1000000, .i32⟩ : BufTy).Contents (Elt Ideal)) (x5 : (⟨S256x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal))
    (g : Fin 1000000 → Fin 16)
    (hb : ∀ e : Fin 1000000, (x4 : S1000000.Idx → BitVec 32) (ix1 e) = BitVec.ofNat 32 (g e).val) :
    val_main_v16 (F := Ideal) x0 x1 x2 x3 x4 x5 x6 x7 x8 = mlpArr x0 x1 x2 x3 g x5 x6 x7 x8 := by
  funext i
  obtain ⟨e, o, rfl⟩ : ∃ (e : Fin 1000000) (o : Fin 64), i = ix2 e o :=
    ⟨⟨(i 0).val, idx2_lt0 i⟩, ⟨(i 1).val, idx2_lt1 i⟩, eq_ix2 i⟩
  have hl : ∀ k : Fin 128, lidx_main_v13 (ix2 e o) k = ix2 e k := fun k =>
    funext fun a => Fin.ext (by match a with | ⟨0, _⟩ => rfl | ⟨1, _⟩ => rfl)
  have hr : ∀ k : Fin 128, ridx_main_v13 (ix2 e o) k = ix2 k o := fun k =>
    funext fun a => Fin.ext (by match a with | ⟨0, _⟩ => rfl | ⟨1, _⟩ => rfl)
  have hi : idx_main_v14 (idx_main_v15 (ix2 e o)) = ix1 o :=
    funext fun a => Fin.ext (by match a with | ⟨0, _⟩ => rfl)
  rw [mlpArr_ix2, val_main_v16_apply, val_main_v13_apply, val_main_v15_apply, val_main_v14_apply, hi]
  simp only [hl, hr, hid_at x0 x1 x2 x3 x4 x5 x6 g hb e]
  rfl

end Cert.ReferenceIdeal.RefValue

end
-- ==== Proof.Labels.lean ====
/-
  What the precondition says of the labels: every one of the million is an integer in `[0, 15]`.

  The printed precondition is a conjunction of nine whole-array tests; its last conjunct is the `and` over all
  edges of `0 ≤ label ∧ label < 16` (signed comparisons of 32-bit words). A word that passes both is the
  word of a natural number below 16.
-/
import proofs.«416944_j49830210568747_3_alg».proof.Pre_finite_inputs
import proofs.«416944_j49830210568747_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Labels

open Cert.Pre_finite_inputs Idealize.ShloMosaic Idealize.ShloMosaic.ValueIdx

/-- The scalar shape has one index. -/
instance subsingleton_scalar_idx : Subsingleton S_.Idx := ⟨fun a b => funext fun d => d.elim0⟩

/-- A 32-bit word that is nonnegative and below 16, both read signed, is the word of its unsigned value
    reduced modulo 16: the sign bit is clear, so the signed and unsigned readings agree, and the value is
    already below 16. -/
theorem word_eq_ofNat_mod_of_range (x : BitVec 32) (hge : IntOp.cmpi .sge x 0#32 = 1#1)
    (hlt : IntOp.cmpi .slt x 16#32 = 1#1) : x = BitVec.ofNat 32 (x.toNat % 16) := by
  rw [IntOp.cmpi_sge, show (0#32 : BitVec 32).toInt = 0 from by decide] at hge
  rw [IntOp.cmpi_slt, show (16#32 : BitVec 32).toInt = 16 from by decide] at hlt
  have hx := x.isLt
  rw [BitVec.toInt_eq_toNat_cond] at hge hlt
  apply BitVec.eq_of_toNat_eq
  rw [BitVec.toNat_ofNat]
  split at hge <;> omega

theorem label_lt_16 (a0 a1 a2 : FVec Ideal S1000000x64 .f32) (a3 : FVec Ideal S16x64 .f32) (a4 : IVec S1000000 32)
    (a5 : FVec Ideal S256x128 .f32) (a6 : FVec Ideal S128 .f32) (a7 : FVec Ideal S128x64 .f32) (a8 : FVec Ideal S64 .f32)
    (h : Cert.Pre_finite_inputs.fn (F := Ideal) a0 a1 a2 a3 a4 a5 a6 a7 a8 = fun _ => 1#1) (e : Fin 1000000) :
    a4 (ix1 e) = BitVec.ofNat 32 ((a4 (ix1 e)).toNat % 16) := by
  -- the whole conjunction at the scalar's one index
  have h0 := congrFun h ix0
  dsimp only [fn, fn_part1, fn_part2] at h0
  -- its last conjunct: the `and` over all edges of the two label tests
  have hall := (IntOp.andi_eq_one.1 h0).2
  -- that `and` at edge `e`
  have he := Host.reduce_andi_all _ _ _ _ _ hall (ix1 e)
  obtain ⟨hge, hlt⟩ := IntOp.andi_eq_one.1 he
  -- the constants broadcast over the edges read 0 and 16 at `e`
  exact word_eq_ofNat_mod_of_range (a4 (ix1 e)) hge hlt

end Cert.Pre_finite_inputs.Labels

end
-- ==== Proof.lean ====
/-
  A message-passing edge update over one million edges — for each edge the row `[src | dest | edge | u[label]]`
  of width 256 through two affine layers with a rectified linear unit between them — computed two edges at a
  time by a packed program, against the plain formula.

  The packed program views every (1000000, 64) array as (500000, 128), so that one row holds edges `2i` and
  `2i+1`, and multiplies by block-diagonal doublings `[[W, 0], [0, W]]` of the weights: a row `[x | y]` times the
  doubling is `[x W | y W]`. The graph row `u[label]` is gathered by a product too: a 0/1 selector of width 32
  (16 lanes per edge of the pair, lane `l` set when the edge's label is `l`) times the doubling of `u`. At the
  ideal values every product is an exact sum over extended reals, where `x · 0 = 0` for every `x` and addition
  is commutative and associative; so the zero blocks contribute nothing, each packed sum is the plain sum for
  the lane's own edge, and the two programs agree entry by entry (Packed.lean). No finiteness is used.

  The two programs treat a label outside `[0, 15]` differently (one clamps it, the other first adds 16 to a
  negative one), so the claim is stated for labels in range, as the precondition says (Labels.lean reads it).

  The packed program's result comes from its generated frame run: what each grid point writes back
  (Blocks.lean), the host line after the region (KernelRun.lean), the host lines before it (HostPreA.lean,
  HostPreB.lean) and the body's stored value (Selector.lean, Stored.lean), joined in KernelValue.lean; the plain
  program's from its generated run, read stage by stage (RefValue.lean).
-/
import proofs.«416944_j49830210568747_3_alg».proof.Defs
import proofs.«416944_j49830210568747_3_alg».proof.Proof.Gen.Kernel
import proofs.«416944_j49830210568747_3_alg».proof.Proof.Gen.Kernel.Skeleton
import proofs.«416944_j49830210568747_3_alg».proof.Proof.Gen.Kernel.Launch
import proofs.«416944_j49830210568747_3_alg».proof.Proof.Gen.Kernel.Points
import proofs.«416944_j49830210568747_3_alg».proof.Proof.Gen.Kernel.Frame
import proofs.«416944_j49830210568747_3_alg».proof.Proof.Gen.KernelIdeal
import proofs.«416944_j49830210568747_3_alg».proof.Proof.Gen.KernelIdeal.Skeleton
import proofs.«416944_j49830210568747_3_alg».proof.Proof.Gen.KernelIdeal.Launch
import proofs.«416944_j49830210568747_3_alg».proof.Proof.Gen.KernelIdeal.Points
import proofs.«416944_j49830210568747_3_alg».proof.Proof.Gen.KernelIdeal.Frame
import proofs.«416944_j49830210568747_3_alg».proof.Proof.Gen.ReferenceIdeal
import proofs.«416944_j49830210568747_3_alg».proof.Proof.Gen.Pre_finite_inputs
import proofs.«416944_j49830210568747_3_alg».proof.Proof.Gen.ReferenceIdeal.Run
import proofs.«416944_j49830210568747_3_alg».proof.Proof.Gen.ReferenceIdeal.Read
import proofs.«416944_j49830210568747_3_alg».proof.Proof.KernelValue
import proofs.«416944_j49830210568747_3_alg».proof.Proof.RefValue
import proofs.«416944_j49830210568747_3_alg».proof.Proof.Labels
import Idealize.ShloMosaic.Adequacy
import Idealize.ShloMosaic.Init

noncomputable section

namespace Cert.Proof

open Idealize.ShloMosaic Idealize.SL.Sem Idealize.ShloMosaic.ValueIdx

/-- The plain program runs and keeps its arguments: its generated run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments, with every label in `[0, 15]`, both programs end with the
    plain network's output for every edge. -/
theorem algebraic : Cert.algebraic_KernelIdeal_ReferenceIdeal := by
  intro m ρ m' ρ' hpre hagree
  let g : Dev Cert.KernelIdeal.nD → Fin 1000000 → Fin 16 := fun c e =>
    ⟨((m ((c.tc : Thread Cert.KernelIdeal.nD Cert.KernelIdeal.τ).loc Cert.KernelIdeal.main_arg4) : Cert.KernelIdeal.S1000000.Idx → BitVec 32) (ix1 e)).toNat % 16,
      Nat.mod_lt _ (by decide)⟩
  have hb : ∀ (c : Dev Cert.KernelIdeal.nD) (e : Fin 1000000),
      (m ((c.tc : Thread Cert.KernelIdeal.nD Cert.KernelIdeal.τ).loc Cert.KernelIdeal.main_arg4) : Cert.KernelIdeal.S1000000.Idx → BitVec 32) (ix1 e)
        = BitVec.ofNat 32 (g c e).val :=
    fun c e => Cert.Pre_finite_inputs.Labels.label_lt_16 _ _ _ _ _ _ _ _ _ (hpre c) e
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  obtain ⟨a0, a1, a2, a3, a4, a5, a6, a7, a8⟩ := hagree c
  rw [a0, a1, a2, a3, a4, a5, a6, a7, a8]
  show _ = Cert.KernelIdeal.Run.result m c
  rw [Cert.KernelIdeal.Run.result_eq m c (g c) (hb c)]
  exact Cert.ReferenceIdeal.RefValue.ref_value _ _ _ _ _ _ _ _ _ (g c) (hb c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
